-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x300 : Shape := ⟨2, ![20000, 300]⟩
abbrev S8000x1280 : Shape := ⟨2, ![8000, 1280]⟩
abbrev S500000 : Shape := ⟨1, ![500000]⟩
abbrev S200000 : Shape := ⟨1, ![200000]⟩
abbrev S512x300 : Shape := ⟨2, ![512, 300]⟩
abbrev S512 : Shape := ⟨1, ![512]⟩
abbrev S512x1280 : Shape := ⟨2, ![512, 1280]⟩
abbrev S5x812 : Shape := ⟨2, ![5, 812]⟩
abbrev S5 : Shape := ⟨1, ![5]⟩
abbrev S_ : Shape := ⟨0, ![]⟩

class Facts : Prop where
  bcast_S_S20000x300 : S_.BroadcastsInDim S20000x300 (![] : Fin 0 → Fin S20000x300.rank)
  reducesTo_S20000x300_S_d0_1 : S20000x300.ReducesTo [0, 1] S_
  h_S_ : 0 < S_.numel
  bcast_S_S8000x1280 : S_.BroadcastsInDim S8000x1280 (![] : Fin 0 → Fin S8000x1280.rank)
  reducesTo_S8000x1280_S_d0_1 : S8000x1280.ReducesTo [0, 1] S_
  bcast_S_S512x300 : S_.BroadcastsInDim S512x300 (![] : Fin 0 → Fin S512x300.rank)
  reducesTo_S512x300_S_d0_1 : S512x300.ReducesTo [0, 1] S_
  bcast_S_S512 : S_.BroadcastsInDim S512 (![] : Fin 0 → Fin S512.rank)
  reducesTo_S512_S_d0 : S512.ReducesTo [0] S_
  bcast_S_S512x1280 : S_.BroadcastsInDim S512x1280 (![] : Fin 0 → Fin S512x1280.rank)
  reducesTo_S512x1280_S_d0_1 : S512x1280.ReducesTo [0, 1] S_
  bcast_S_S5x812 : S_.BroadcastsInDim S5x812 (![] : Fin 0 → Fin S5x812.rank)
  reducesTo_S5x812_S_d0_1 : S5x812.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg8 : FVec F S512x1280 .f32) (main_arg9 : FVec F S5x812 .f32) (main_arg10 : FVec F S5 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1280 .f32 := Host.absf main_arg8
  let main_cst_6 : FVec F S_ .f32 := constant S_ .f32 0x7F800000#32
  let main_v20 : FVec F S512x1280 .f32 := broadcastInDim S512x1280 ![] bcast_S_S512x1280 main_cst_6
  let main_v21 : IVec S512x1280 1 := cmpf .olt main_v19 main_v20
  let main_c_7 : IVec S_ 1 := constantI S_ 1 1#1
  let main_v22 : IVec S_ 1 := (fun x v => Host.reduce IntOp.andi x v reducesTo_S512x1280_S_d0_1 h_S_) main_v21 main_c_7
  let main_v23 : IVec S_ 1 := andi main_v18 main_v22
  let main_v24 : FVec F S5x812 .f32 := Host.absf main_arg9
  let main_cst_8 : FVec F S_ .f32 := constant S_ .f32 0x7F800000#32
  let main_v25 : FVec F S5x812 .f32 := broadcastInDim S5x812 ![] bcast_S_S5x812 main_cst_8
  let main_v26 : IVec S5x812 1 := cmpf .olt main_v24 main_v25
  let main_c_9 : IVec S_ 1 := constantI S_ 1 1#1
  let main_v27 : IVec S_ 1 := (fun x v => Host.reduce IntOp.andi x v reducesTo_S5x812_S_d0_1 h_S_) main_v26 main_c_9
  let main_v28 : IVec S_ 1 := andi main_v23 main_v27
  let main_v29 : FVec F S5 .f32 := Host.absf main_arg10
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S20000x300 .f32) (main_arg1 : FVec F S8000x1280 .f32) (main_arg2 : IVec S500000 32) (main_arg3 : IVec S500000 32) (main_arg4 : IVec S200000 32) (main_arg5 : IVec S200000 32) (main_arg6 : FVec F S512x300 .f32) (main_arg7 : FVec F S512 .f32) (main_arg8 : FVec F S512x1280 .f32) (main_arg9 : FVec F S5x812 .f32) (main_arg10 : FVec F S5 .f32) : IVec S_ 1 :=
  let main_v0 : FVec F S20000x300 .f32 := Host.absf main_arg0
  let main_cst : FVec F S_ .f32 := constant S_ .f32 0x7F800000#32
  let main_v1 : FVec F S20000x300 .f32 := broadcastInDim S20000x300 ![] bcast_S_S20000x300 main_cst
  let main_v2 : IVec S20000x300 1 := cmpf .olt main_v0 main_v1
  let main_c : IVec S_ 1 := constantI S_ 1 1#1
  let main_v3 : IVec S_ 1 := (fun x v => Host.reduce IntOp.andi x v reducesTo_S20000x300_S_d0_1 h_S_) main_v2 main_c
  let main_v4 : FVec F S8000x1280 .f32 := Host.absf main_arg1
  let main_cst_0 : FVec F S_ .f32 := constant S_ .f32 0x7F800000#32
  let main_v5 : FVec F S8000x1280 .f32 := broadcastInDim S8000x1280 ![] bcast_S_S8000x1280 main_cst_0
  let main_v6 : IVec S8000x1280 1 := cmpf .olt main_v4 main_v5
  let main_c_1 : IVec S_ 1 := constantI S_ 1 1#1
  let main_v7 : IVec S_ 1 := (fun x v => Host.reduce IntOp.andi x v reducesTo_S8000x1280_S_d0_1 h_S_) main_v6 main_c_1
  let main_v8 : IVec S_ 1 := andi main_v3 main_v7
  let main_v9 : FVec F S512x300 .f32 := Host.absf main_arg6
  let main_cst_2 : FVec F S_ .f32 := constant S_ .f32 0x7F800000#32
  let main_v10 : FVec F S512x300 .f32 := broadcastInDim S512x300 ![] bcast_S_S512x300 main_cst_2
  let main_v11 : IVec S512x300 1 := cmpf .olt main_v9 main_v10
  let main_c_3 : IVec S_ 1 := constantI S_ 1 1#1
  let main_v12 : IVec S_ 1 := (fun x v => Host.reduce IntOp.andi x v reducesTo_S512x300_S_d0_1 h_S_) main_v11 main_c_3
  let main_v13 : IVec S_ 1 := andi main_v8 main_v12
  let main_v14 : FVec F S512 .f32 := Host.absf main_arg7
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg8 main_arg9 main_arg10 main_v13 main_v16
-- ==== Kernel.lean ====
abbrev S20000x300 : Shape := ⟨2, ![20000, 300]⟩
abbrev S8000x1280 : Shape := ⟨2, ![8000, 1280]⟩
abbrev S500000 : Shape := ⟨1, ![500000]⟩
abbrev S200000 : Shape := ⟨1, ![200000]⟩
abbrev S512x300 : Shape := ⟨2, ![512, 300]⟩
abbrev S512 : Shape := ⟨1, ![512]⟩
abbrev S512x1280 : Shape := ⟨2, ![512, 1280]⟩
abbrev S5x812 : Shape := ⟨2, ![5, 812]⟩
abbrev S5 : Shape := ⟨1, ![5]⟩
abbrev S_ : Shape := ⟨0, ![]⟩
abbrev S500000x1 : Shape := ⟨2, ![500000, 1]⟩
abbrev S500000x300 : Shape := ⟨2, ![500000, 300]⟩
abbrev S8000x300 : Shape := ⟨2, ![8000, 300]⟩
abbrev S8000 : Shape := ⟨1, ![8000]⟩
abbrev S8000x1 : Shape := ⟨2, ![8000, 1]⟩
abbrev S300x512 : Shape := ⟨2, ![300, 512]⟩
abbrev S1280x512 : Shape := ⟨2, ![1280, 512]⟩
abbrev S1x512 : Shape := ⟨2, ![1, 512]⟩
abbrev S8000x512 : Shape := ⟨2, ![8000, 512]⟩
abbrev S1000x300 : Shape := ⟨2, ![1000, 300]⟩
abbrev S1000x1280 : Shape := ⟨2, ![1000, 1280]⟩
abbrev S1000x512 : Shape := ⟨2, ![1000, 512]⟩
abbrev S200000x1 : Shape := ⟨2, ![200000, 1]⟩
abbrev S200000x300 : Shape := ⟨2, ![200000, 300]⟩
abbrev S200000x512 : Shape := ⟨2, ![200000, 512]⟩
abbrev S5x300 : Shape := ⟨2, ![5, 300]⟩
abbrev S300x5 : Shape := ⟨2, ![300, 5]⟩
abbrev S5x512 : Shape := ⟨2, ![5, 512]⟩
abbrev S512x5 : Shape := ⟨2, ![512, 5]⟩
abbrev S1x5 : Shape := ⟨2, ![1, 5]⟩
abbrev S200000x5 : Shape := ⟨2, ![200000, 5]⟩
abbrev S2000x300 : Shape := ⟨2, ![2000, 300]⟩
abbrev S2000x512 : Shape := ⟨2, ![2000, 512]⟩
abbrev S2000x5 : Shape := ⟨2, ![2000, 5]⟩

abbrev nBuf : Space → Nat
  | .hbm => 65
  | .vmem => 18
  | .smem => 0
  | _ => 0

abbrev bufTy : (tb : Table) → Fin (tcTables nBuf tb) → BufTy
  | .hbm, ⟨0, _⟩ => ⟨S20000x300, .f32⟩
  | .hbm, ⟨1, _⟩ => ⟨S8000x1280, .f32⟩
  | .hbm, ⟨2, _⟩ => ⟨S500000, .i32⟩
  | .hbm, ⟨3, _⟩ => ⟨S500000, .i32⟩
  | .hbm, ⟨4, _⟩ => ⟨S200000, .i32⟩
  | .hbm, ⟨5, _⟩ => ⟨S200000, .i32⟩
  | .hbm, ⟨6, _⟩ => ⟨S512x300, .f32⟩
  | .hbm, ⟨7, _⟩ => ⟨S512, .f32⟩
  | .hbm, ⟨8, _⟩ => ⟨S512x1280, .f32⟩
  | .hbm, ⟨9, _⟩ => ⟨S5x812, .f32⟩
  | .hbm, ⟨10, _⟩ => ⟨S5, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x300, .f32⟩
  | .hbm, ⟨20, _⟩ => ⟨S_, .f32⟩
  | .hbm, ⟨21, _⟩ => ⟨S8000x300, .f32⟩
  | .hbm, ⟨22, _⟩ => ⟨S500000x1, .i32⟩
  | .hbm, ⟨23, _⟩ => ⟨S8000x300, .f32⟩
  | .hbm, ⟨24, _⟩ => ⟨S_, .f32⟩
  | .hbm, ⟨25, _⟩ => ⟨S500000, .f32⟩
  | .hbm, ⟨26, _⟩ => ⟨S_, .f32⟩
  | .hbm, ⟨27, _⟩ => ⟨S8000, .f32⟩
  | .hbm, ⟨28, _⟩ => ⟨S500000x1, .i32⟩
  | .hbm, ⟨29, _⟩ => ⟨S8000, .f32⟩
  | .hbm, ⟨30, _⟩ => ⟨S_, .f32⟩
  | .hbm, ⟨31, _⟩ => ⟨S_, .f32⟩
  | .hbm, ⟨32, _⟩ => ⟨S8000, .f32⟩
  | .hbm, ⟨33, _⟩ => ⟨S8000, .f32⟩
  | .hbm, ⟨34, _⟩ => ⟨S8000x1, .f32⟩
  | .hbm, ⟨35, _⟩ => ⟨S8000x300, .f32⟩
  | .hbm, ⟨36, _⟩ => ⟨S8000x300, .f32⟩
  | .hbm, ⟨37, _⟩ => ⟨S300x512, .f32⟩
  | .hbm, ⟨38, _⟩ => ⟨S1280x512, .f32⟩
  | .hbm, ⟨39, _⟩ => ⟨S1x512, .f32⟩
  | .hbm, ⟨40, _⟩ => ⟨S8000x512, .f32⟩
  | .hbm, ⟨41, _⟩ => ⟨S_, .i32⟩
  | .hbm, ⟨42, _⟩ => ⟨S200000, .i32⟩
  | .hbm, ⟨43, _⟩ => ⟨S200000, .i1⟩
  | .hbm, ⟨44, _⟩ => ⟨S_, .i32⟩
  | .hbm, ⟨45, _⟩ => ⟨S200000, .i32⟩
  | .hbm, ⟨46, _⟩ => ⟨S200000, .i32⟩
  | .hbm, ⟨47, _⟩ => ⟨S200000, .i32⟩
  | .hbm, ⟨48, _⟩ => ⟨S200000x1, .i32⟩
  | .hbm, ⟨49, _⟩ => ⟨S200000x300, .f32⟩
  | .hbm, ⟨50, _⟩ => ⟨S_, .i32⟩
  | .hbm, ⟨51, _⟩ => ⟨S200000, .i32⟩
  | .hbm, ⟨52, _⟩ => ⟨S200000, .i1⟩
  | .hbm, ⟨53, _⟩ => ⟨S_, .i32⟩
  | .hbm, ⟨54, _⟩ => ⟨S200000, .i32⟩
  | .hbm, ⟨55, _⟩ => ⟨S200000, .i32⟩
  | .hbm, ⟨56, _⟩ => ⟨S200000, .i32⟩
  | .hbm, ⟨57, _⟩ => ⟨S200000x1, .i32⟩
  | .hbm, ⟨58, _⟩ => ⟨S200000x512, .f32⟩
  | .hbm, ⟨59, _⟩ => ⟨S5x300, .f32⟩
  | .hbm, ⟨60, _⟩ => ⟨S300x5, .f32⟩
  | .hbm, ⟨61, _⟩ => ⟨S5x512, .f32⟩
  | .hbm, ⟨62, _⟩ => ⟨S512x5, .f32⟩
  | .hbm, ⟨63, _⟩ => ⟨S1x5, .f32⟩
  | .hbm, ⟨64, _⟩ => ⟨S200000x5, .f32⟩
  | .local _ .vmem, ⟨0, _⟩ => ⟨S1000x300, .f32⟩
  | .local _ .vmem, ⟨1, _⟩ => ⟨S1000x300, .f32⟩
  | .local _ .vmem, ⟨2, _⟩ => ⟨S1000x1280, .f32⟩
  | .local _ .vmem, ⟨3, _⟩ => ⟨S1000x1280, .f32⟩
  | .local _ .vmem, ⟨4, _⟩ => ⟨S300x512, .f32⟩
  | .local _ .vmem, ⟨5, _⟩ => ⟨S1280x512, .f32⟩
  | .local _ .vmem, ⟨6, _⟩ => ⟨S1x512, .f32⟩
  | .local _ .vmem, ⟨7, _⟩ => ⟨S1000x512, .f32⟩
  | .local _ .vmem, ⟨8, _⟩ => ⟨S1000x512, .f32⟩
  | .local _ .vmem, ⟨9, _⟩ => ⟨S2000x300, .f32⟩
  | .local _ .vmem, ⟨10, _⟩ => ⟨S2000x300, .f32⟩
  | .local _ .vmem, ⟨11, _⟩ => ⟨S2000x512, .f32⟩
  | .local _ .vmem, ⟨12, _⟩ => ⟨S2000x512, .f32⟩
  | .local _ .vmem, ⟨13, _⟩ => ⟨S300x5, .f32⟩
  | .local _ .vmem, ⟨14, _⟩ => ⟨S512x5, .f32⟩
  | .local _ .vmem, ⟨15, _⟩ => ⟨S1x5, .f32⟩
  | .local _ .vmem, ⟨16, _⟩ => ⟨S2000x5, .f32⟩
  | .local _ .vmem, ⟨17, _⟩ => ⟨S2000x5, .f32⟩
  | _, _ => ⟨S20000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S300x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S300x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x5 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S8000x300 : S_.BroadcastsInDim S8000x300 (![] : Fin 0 → Fin S8000x300.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x300_0_1 : S8000x1.BroadcastsInDim S8000x300 (![0, 1] : Fin 2 → Fin S8000x300.rank)
  transposes_S512x300_S300x512_1_0 : S512x300.Transposes [1, 0] S300x512
  transposes_S512x1280_S1280x512_1_0 : S512x1280.Transposes [1, 0] S1280x512
  shapeCasts_S512_S1x512 : S512.ShapeCasts S1x512
  inb_S1000x300_S1000x300_0_0 : ∀ a, (![0, 0] : Fin 2 → Nat) a + S1000x300.size a ≤ S1000x300.size a
  h_S1000x300 : 0 < S1000x300.numel
  shapeCasts_S1000x300_S1000x300 : S1000x300.ShapeCasts S1000x300
  bitsLt_bf16_f32 : FTy.bits .bf16 < FTy.bits .f32
  inb_S1000x1280_S1000x1280_0_0 : ∀ a, (![0, 0] : Fin 2 → Nat) a + S1000x1280.size a ≤ S1000x1280.size a
  h_S1000x1280 : 0 < S1000x1280.numel
  inb_S300x512_S300x512_0_0 : ∀ a, (![0, 0] : Fin 2 → Nat) a + S300x512.size a ≤ S300x512.size a
  h_S300x512 : 0 < S300x512.numel
  shapeCasts_S300x512_S300x512 : S300x512.ShapeCasts S300x512
  inb_S1280x512_S1280x512_0_0 : ∀ a, (![0, 0] : Fin 2 → Nat) a + S1280x512.size a ≤ S1280x512.size a
  h_S1280x512 : 0 < S1280x512.numel
  shapeCasts_S1280x512_S1280x512 : S1280x512.ShapeCasts S1280x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  bcast_S_S200000 : S_.BroadcastsInDim S200000 (![] : Fin 0 → Fin S200000.rank)
  bcast_S200000_S200000x1_0 : S200000.BroadcastsInDim S200000x1 (![0] : Fin 1 → Fin S200000x1.rank)
  slices_S5x812_S5x300_0_0 : S5x812.Slices ![0, 0] S5x300
  transposes_S5x300_S300x5_1_0 : S5x300.Transposes [1, 0] S300x5
  slices_S5x812_S5x512_0_300 : S5x812.Slices ![0, 300] S5x512
  transposes_S5x512_S512x5_1_0 : S5x512.Transposes [1, 0] S512x5
  shapeCasts_S5_S1x5 : S5.ShapeCasts S1x5
  inb_S2000x300_S2000x300_0_0 : ∀ a, (![0, 0] : Fin 2 → Nat) a + S2000x300.size a ≤ S2000x300.size a
  h_S2000x300 : 0 < S2000x300.numel
  shapeCasts_S2000x300_S2000x300 : S2000x300.ShapeCasts S2000x300
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S300x5_S300x5_0_0 : ∀ a, (![0, 0] : Fin 2 → Nat) a + S300x5.size a ≤ S300x5.size a
  h_S300x5 : 0 < S300x5.numel
  shapeCasts_S300x5_S300x5 : S300x5.ShapeCasts S300x5
  inb_S512x5_S512x5_0_0 : ∀ a, (![0, 0] : Fin 2 → Nat) a + S512x5.size a ≤ S512x5.size a
  h_S512x5 : 0 < S512x5.numel
  shapeCasts_S512x5_S512x5 : S512x5.ShapeCasts S512x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S2000x5 : S1x5.Broadcasts S2000x5
  inb_S2000x5_S2000x5_0_0 : ∀ a, (![0, 0] : Fin 2 → Nat) a + S2000x5.size a ≤ S2000x5.size a
  h_S2000x5 : 0 < S2000x5.numel
  gather_S20000x300_S500000x1_S500000x300_1_0_n_n_0_1_1300_wf : GatherDims.WF S20000x300 S500000x1 S500000x300 [1] [0] [] [0] [] 1 ![1, 300]
  scatter_S8000x300_S500000x1_S500000x300_1_0_0_1_wf : ScatterDims.WF S8000x300 S500000x1 S500000x300 [1] [0] [0] 1
  scatter_S8000_S500000x1_S500000_n_0_0_1_wf : ScatterDims.WF S8000 S500000x1 S500000 [] [0] [0] 1
  dot_S1000x300_S300x512_S1000x512_1_0_0_1_n_n_wf : DotDims.WF S1000x300 S300x512 S1000x512 [1] [0] [0] [1] [] []
  dot_S1000x1280_S1280x512_S1000x512_1_0_0_1_n_n_wf : DotDims.WF S1000x1280 S1280x512 S1000x512 [1] [0] [0] [1] [] []
  gather_S20000x300_S200000x1_S200000x300_1_0_n_n_0_1_1300_wf : GatherDims.WF S20000x300 S200000x1 S200000x300 [1] [0] [] [0] [] 1 ![1, 300]
  gather_S8000x512_S200000x1_S200000x512_1_0_n_n_0_1_1512_wf : GatherDims.WF S8000x512 S200000x1 S200000x512 [1] [0] [] [0] [] 1 ![1, 512]
  dot_S2000x300_S300x5_S2000x5_1_0_0_1_n_n_wf : DotDims.WF S2000x300 S300x5 S2000x5 [1] [0] [0] [1] [] []
  dot_S2000x512_S512x5_S2000x5_1_0_0_1_n_n_wf : DotDims.WF S2000x512 S512x5 S2000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x300.size a ≤ S8000x300.size a
  hwx0_0 : ∀ i : grid0.Coords, EltTy.bits .f32 = 32 ∨ (Rect.block (s := S8000x300) S1000x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1280.size a ≤ S8000x1280.size a
  hwx0_1 : ∀ i : grid0.Coords, EltTy.bits .f32 = 32 ∨ (Rect.block (s := S8000x1280) S1000x1280.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300x512.size a ≤ S300x512.size a
  hwx0_2 : ∀ i : grid0.Coords, EltTy.bits .f32 = 32 ∨ (Rect.block (s := S300x512) S300x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1280x512.size a ≤ S1280x512.size a
  hwx0_3 : ∀ i : grid0.Coords, EltTy.bits .f32 = 32 ∨ (Rect.block (s := S1280x512) S1280x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S8000x512.size a
  hwx0_5 : ∀ i : grid0.Coords, EltTy.bits .f32 = 32 ∨ (Rect.block (s := S8000x512) S1000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S200000x300.size a
  hwx1_0 : ∀ i : grid1.Coords, EltTy.bits .f32 = 32 ∨ (Rect.block (s := S200000x300) S2000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S200000x512.size a
  hwx1_1 : ∀ i : grid1.Coords, EltTy.bits .f32 = 32 ∨ (Rect.block (s := S200000x512) S2000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300x5.size a ≤ S300x5.size a
  hwx1_2 : ∀ i : grid1.Coords, EltTy.bits .f32 = 32 ∨ (Rect.block (s := S300x5) S300x5.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x5.size a ≤ S512x5.size a
  hwx1_3 : ∀ i : grid1.Coords, EltTy.bits .f32 = 32 ∨ (Rect.block (s := S512x5) S512x5.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x5.size a ≤ S1x5.size a
  hwx1_4 : ∀ i : grid1.Coords, EltTy.bits .f32 = 32 ∨ (Rect.block (s := S1x5) S1x5.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x5.size a ≤ S200000x5.size a
  hwx1_5 : ∀ i : grid1.Coords, EltTy.bits .f32 = 32 ∨ (Rect.block (s := S200000x5) S2000x5.size (cc1_transform_5 i) (hinb1_5 i)).WholeWords (EltTy.packing .f32)

variable [Facts₀]

def gather_S20000x300_S500000x1_S500000x300_1_0_n_n_0_1_1300 : GatherDims S20000x300 S500000x1 S500000x300 where
  offsetDims := [1]
  collapsedSliceDims := [0]
  operandBatchingDims := []
  startIndicesBatchingDims := []
  startIndexMap := [0]
  indexVectorDim := 1
  sliceSizes := ![1, 300]
  wf := gather_S20000x300_S500000x1_S500000x300_1_0_n_n_0_1_1300_wf
def scatter_S8000x300_S500000x1_S500000x300_1_0_0_1 : ScatterDims S8000x300 S500000x1 S500000x300 where
  updateWindowDims := [1]
  insertedWindowDims := [0]
  scatterDimsToOperandDims := [0]
  indexVectorDim := 1
  wf := scatter_S8000x300_S500000x1_S500000x300_1_0_0_1_wf
def scatter_S8000_S500000x1_S500000_n_0_0_1 : ScatterDims S8000 S500000x1 S500000 where
  updateWindowDims := []
  insertedWindowDims := [0]
  scatterDimsToOperandDims := [0]
  indexVectorDim := 1
  wf := scatter_S8000_S500000x1_S500000_n_0_0_1_wf
def dot_S1000x300_S300x512_S1000x512_1_0_0_1_n_n : DotDims S1000x300 S300x512 S1000x512 where
  lhsContracting := [1]
  rhsContracting := [0]
  lhsNonContracting := [0]
  rhsNonContracting := [1]
  lhsBatch := []
  rhsBatch := []
  wf := dot_S1000x300_S300x512_S1000x512_1_0_0_1_n_n_wf
def dot_S1000x1280_S1280x512_S1000x512_1_0_0_1_n_n : DotDims S1000x1280 S1280x512 S1000x512 where
  lhsContracting := [1]
  rhsContracting := [0]
  lhsNonContracting := [0]
  rhsNonContracting := [1]
  lhsBatch := []
  rhsBatch := []
  wf := dot_S1000x1280_S1280x512_S1000x512_1_0_0_1_n_n_wf
def gather_S20000x300_S200000x1_S200000x300_1_0_n_n_0_1_1300 : GatherDims S20000x300 S200000x1 S200000x300 where
  offsetDims := [1]
  collapsedSliceDims := [0]
  operandBatchingDims := []
  startIndicesBatchingDims := []
  startIndexMap := [0]
  indexVectorDim := 1
  sliceSizes := ![1, 300]
  wf := gather_S20000x300_S200000x1_S200000x300_1_0_n_n_0_1_1300_wf
def gather_S8000x512_S200000x1_S200000x512_1_0_n_n_0_1_1512 : GatherDims S8000x512 S200000x1 S200000x512 where
  offsetDims := [1]
  collapsedSliceDims := [0]
  operandBatchingDims := []
  startIndicesBatchingDims := []
  startIndexMap := [0]
  indexVectorDim := 1
  sliceSizes := ![1, 512]
  wf := gather_S8000x512_S200000x1_S200000x512_1_0_n_n_0_1_1512_wf
def dot_S2000x300_S300x5_S2000x5_1_0_0_1_n_n : DotDims S2000x300 S300x5 S2000x5 where
  lhsContracting := [1]
  rhsContracting := [0]
  lhsNonContracting := [0]
  rhsNonContracting := [1]
  lhsBatch := []
  rhsBatch := []
  wf := dot_S2000x300_S300x5_S2000x5_1_0_0_1_n_n_wf
def dot_S2000x512_S512x5_S2000x5_1_0_0_1_n_n : DotDims S2000x512 S512x5 S2000x5 where
  lhsContracting := [1]
  rhsContracting := [0]
  lhsNonContracting := [0]
  rhsNonContracting := [1]
  lhsBatch := []
  rhsBatch := []
  wf := dot_S2000x512_S512x5_S2000x5_1_0_0_1_n_n_wf

abbrev win0_0 : Pipeline.Window sig grid0 :=
  Pipeline.Window.ofSpec (Memref.whole main_v17) S1000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S300x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1280x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S300x5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S512x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x5.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S20000x300 : Shape := ⟨2, ![20000, 300]⟩
abbrev S8000x1280 : Shape := ⟨2, ![8000, 1280]⟩
abbrev S500000 : Shape := ⟨1, ![500000]⟩
abbrev S200000 : Shape := ⟨1, ![200000]⟩
abbrev S512x300 : Shape := ⟨2, ![512, 300]⟩
abbrev S512 : Shape := ⟨1, ![512]⟩
abbrev S512x1280 : Shape := ⟨2, ![512, 1280]⟩
abbrev S5x812 : Shape := ⟨2, ![5, 812]⟩
abbrev S5 : Shape := ⟨1, ![5]⟩
abbrev S_ : Shape := ⟨0, ![]⟩
abbrev S500000x1 : Shape := ⟨2, ![500000, 1]⟩
abbrev S500000x300 : Shape := ⟨2, ![500000, 300]⟩
abbrev S8000x300 : Shape := ⟨2, ![8000, 300]⟩
abbrev S8000 : Shape := ⟨1, ![8000]⟩
abbrev S8000x1 : Shape := ⟨2, ![8000, 1]⟩
abbrev S300x512 : Shape := ⟨2, ![300, 512]⟩
abbrev S8000x512 : Shape := ⟨2, ![8000, 512]⟩
abbrev S1x512 : Shape := ⟨2, ![1, 512]⟩
abbrev S1280x512 : Shape := ⟨2, ![1280, 512]⟩
abbrev S200000x1 : Shape := ⟨2, ![200000, 1]⟩
abbrev S200000x300 : Shape := ⟨2, ![200000, 300]⟩
abbrev S200000x512 : Shape := ⟨2, ![200000, 512]⟩
abbrev S200000x812 : Shape := ⟨2, ![200000, 812]⟩
abbrev S812x5 : Shape := ⟨2, ![812, 5]⟩
abbrev S200000x5 : Shape := ⟨2, ![200000, 5]⟩
abbrev S1x5 : Shape := ⟨2, ![1, 5]⟩

abbrev nBuf : Space → Nat
  | .hbm => 69
  | .vmem => 0
  | .smem => 0
  | _ => 0

abbrev bufTy : (tb : Table) → Fin (tcTables nBuf tb) → BufTy
  | .hbm, ⟨0, _⟩ => ⟨S20000x300, .f32⟩
  | .hbm, ⟨1, _⟩ => ⟨S8000x1280, .f32⟩
  | .hbm, ⟨2, _⟩ => ⟨S500000, .i32⟩
  | .hbm, ⟨3, _⟩ => ⟨S500000, .i32⟩
  | .hbm, ⟨4, _⟩ => ⟨S200000, .i32⟩
  | .hbm, ⟨5, _⟩ => ⟨S200000, .i32⟩
  | .hbm, ⟨6, _⟩ => ⟨S512x300, .f32⟩
  | .hbm, ⟨7, _⟩ => ⟨S512, .f32⟩
  | .hbm, ⟨8, _⟩ => ⟨S512x1280, .f32⟩
  | .hbm, ⟨9, _⟩ => ⟨S5x812, .f32⟩
  | .hbm, ⟨10, _⟩ => ⟨S5, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x300, .f32⟩
  | .hbm, ⟨20, _⟩ => ⟨S_, .f32⟩
  | .hbm, ⟨21, _⟩ => ⟨S8000x300, .f32⟩
  | .hbm, ⟨22, _⟩ => ⟨S500000x1, .i32⟩
  | .hbm, ⟨23, _⟩ => ⟨S8000x300, .f32⟩
  | .hbm, ⟨24, _⟩ => ⟨S_, .f32⟩
  | .hbm, ⟨25, _⟩ => ⟨S500000, .f32⟩
  | .hbm, ⟨26, _⟩ => ⟨S_, .f32⟩
  | .hbm, ⟨27, _⟩ => ⟨S8000, .f32⟩
  | .hbm, ⟨28, _⟩ => ⟨S500000x1, .i32⟩
  | .hbm, ⟨29, _⟩ => ⟨S8000, .f32⟩
  | .hbm, ⟨30, _⟩ => ⟨S_, .f32⟩
  | .hbm, ⟨31, _⟩ => ⟨S_, .f32⟩
  | .hbm, ⟨32, _⟩ => ⟨S8000, .f32⟩
  | .hbm, ⟨33, _⟩ => ⟨S8000, .f32⟩
  | .hbm, ⟨34, _⟩ => ⟨S8000x1, .f32⟩
  | .hbm, ⟨35, _⟩ => ⟨S8000x300, .f32⟩
  | .hbm, ⟨36, _⟩ => ⟨S8000x300, .f32⟩
  | .hbm, ⟨37, _⟩ => ⟨S300x512, .f32⟩
  | .hbm, ⟨38, _⟩ => ⟨S8000x512, .f32⟩
  | .hbm, ⟨39, _⟩ => ⟨S1x512, .f32⟩
  | .hbm, ⟨40, _⟩ => ⟨S8000x512, .f32⟩
  | .hbm, ⟨41, _⟩ => ⟨S8000x512, .f32⟩
  | .hbm, ⟨42, _⟩ => ⟨S1280x512, .f32⟩
  | .hbm, ⟨43, _⟩ => ⟨S8000x512, .f32⟩
  | .hbm, ⟨44, _⟩ => ⟨S8000x512, .f32⟩
  | .hbm, ⟨45, _⟩ => ⟨S_, .i32⟩
  | .hbm, ⟨46, _⟩ => ⟨S200000, .i32⟩
  | .hbm, ⟨47, _⟩ => ⟨S200000, .i1⟩
  | .hbm, ⟨48, _⟩ => ⟨S_, .i32⟩
  | .hbm, ⟨49, _⟩ => ⟨S200000, .i32⟩
  | .hbm, ⟨50, _⟩ => ⟨S200000, .i32⟩
  | .hbm, ⟨51, _⟩ => ⟨S200000, .i32⟩
  | .hbm, ⟨52, _⟩ => ⟨S200000x1, .i32⟩
  | .hbm, ⟨53, _⟩ => ⟨S200000x300, .f32⟩
  | .hbm, ⟨54, _⟩ => ⟨S_, .i32⟩
  | .hbm, ⟨55, _⟩ => ⟨S200000, .i32⟩
  | .hbm, ⟨56, _⟩ => ⟨S200000, .i1⟩
  | .hbm, ⟨57, _⟩ => ⟨S_, .i32⟩
  | .hbm, ⟨58, _⟩ => ⟨S200000, .i32⟩
  | .hbm, ⟨59, _⟩ => ⟨S200000, .i32⟩
  | .hbm, ⟨60, _⟩ => ⟨S200000, .i32⟩
  | .hbm, ⟨61, _⟩ => ⟨S200000x1, .i32⟩
  | .hbm, ⟨62, _⟩ => ⟨S200000x512, .f32⟩
  | .hbm, ⟨63, _⟩ => ⟨S200000x812, .f32⟩
  | .hbm, ⟨64, _⟩ => ⟨S812x5, .f32⟩
  | .hbm, ⟨65, _⟩ => ⟨S200000x5, .f32⟩
  | .hbm, ⟨66, _⟩ => ⟨S1x5, .f32⟩
  | .hbm, ⟨67, _⟩ => ⟨S200000x5, .f32⟩
  | .hbm, ⟨68, _⟩ => ⟨S200000x5, .f32⟩
  | _, _ => ⟨S20000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S8000x300 : S_.BroadcastsInDim S8000x300 (![] : Fin 0 → Fin S8000x300.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x300_0_1 : S8000x1.BroadcastsInDim S8000x300 (![0, 1] : Fin 2 → Fin S8000x300.rank)
  transposes_S512x300_S300x512_1_0 : S512x300.Transposes [1, 0] S300x512
  bcast_S512_S1x512_1 : S512.BroadcastsInDim S1x512 (![1] : Fin 1 → Fin S1x512.rank)
  bcast_S1x512_S8000x512_0_1 : S1x512.BroadcastsInDim S8000x512 (![0, 1] : Fin 2 → Fin S8000x512.rank)
  transposes_S512x1280_S1280x512_1_0 : S512x1280.Transposes [1, 0] S1280x512
  bcast_S_S200000 : S_.BroadcastsInDim S200000 (![] : Fin 0 → Fin S200000.rank)
  bcast_S200000_S200000x1_0 : S200000.BroadcastsInDim S200000x1 (![0] : Fin 1 → Fin S200000x1.rank)
  concatenates_S200000x300_S200000x512_S200000x812_d1 : Shape.Concatenates [S200000x300, S200000x512] S200000x812 1
  transposes_S5x812_S812x5_1_0 : S5x812.Transposes [1, 0] S812x5
  bcast_S5_S1x5_1 : S5.BroadcastsInDim S1x5 (![1] : Fin 1 → Fin S1x5.rank)
  bcast_S1x5_S200000x5_0_1 : S1x5.BroadcastsInDim S200000x5 (![0, 1] : Fin 2 → Fin S200000x5.rank)
  gather_S20000x300_S500000x1_S500000x300_1_0_n_n_0_1_1300_wf : GatherDims.WF S20000x300 S500000x1 S500000x300 [1] [0] [] [0] [] 1 ![1, 300]
  scatter_S8000x300_S500000x1_S500000x300_1_0_0_1_wf : ScatterDims.WF S8000x300 S500000x1 S500000x300 [1] [0] [0] 1
  scatter_S8000_S500000x1_S500000_n_0_0_1_wf : ScatterDims.WF S8000 S500000x1 S500000 [] [0] [0] 1
  dot_S8000x300_S300x512_S8000x512_1_0_0_1_n_n_wf : DotDims.WF S8000x300 S300x512 S8000x512 [1] [0] [0] [1] [] []
  dot_S8000x1280_S1280x512_S8000x512_1_0_0_1_n_n_wf : DotDims.WF S8000x1280 S1280x512 S8000x512 [1] [0] [0] [1] [] []
  gather_S20000x300_S200000x1_S200000x300_1_0_n_n_0_1_1300_wf : GatherDims.WF S20000x300 S200000x1 S200000x300 [1] [0] [] [0] [] 1 ![1, 300]
  gather_S8000x512_S200000x1_S200000x512_1_0_n_n_0_1_1512_wf : GatherDims.WF S8000x512 S200000x1 S200000x512 [1] [0] [] [0] [] 1 ![1, 512]
  dot_S200000x812_S812x5_S200000x5_1_0_0_1_n_n_wf : DotDims.WF S200000x812 S812x5 S200000x5 [1] [0] [0] [1] [] []

variable [Facts₀]

def gather_S20000x300_S500000x1_S500000x300_1_0_n_n_0_1_1300 : GatherDims S20000x300 S500000x1 S500000x300 where
  offsetDims := [1]
  collapsedSliceDims := [0]
  operandBatchingDims := []
  startIndicesBatchingDims := []
  startIndexMap := [0]
  indexVectorDim := 1
  sliceSizes := ![1, 300]
  wf := gather_S20000x300_S500000x1_S500000x300_1_0_n_n_0_1_1300_wf
def scatter_S8000x300_S500000x1_S500000x300_1_0_0_1 : ScatterDims S8000x300 S500000x1 S500000x300 where
  updateWindowDims := [1]
  insertedWindowDims := [0]
  scatterDimsToOperandDims := [0]
  indexVectorDim := 1
  wf := scatter_S8000x300_S500000x1_S500000x300_1_0_0_1_wf
def scatter_S8000_S500000x1_S500000_n_0_0_1 : ScatterDims S8000 S500000x1 S500000 where
  updateWindowDims := []
  insertedWindowDims := [0]
  scatterDimsToOperandDims := [0]
  indexVectorDim := 1
  wf := scatter_S8000_S500000x1_S500000_n_0_0_1_wf
def dot_S8000x300_S300x512_S8000x512_1_0_0_1_n_n : DotDims S8000x300 S300x512 S8000x512 where
  lhsContracting := [1]
  rhsContracting := [0]
  lhsNonContracting := [0]
  rhsNonContracting := [1]
  lhsBatch := []
  rhsBatch := []
  wf := dot_S8000x300_S300x512_S8000x512_1_0_0_1_n_n_wf
def dot_S8000x1280_S1280x512_S8000x512_1_0_0_1_n_n : DotDims S8000x1280 S1280x512 S8000x512 where
  lhsContracting := [1]
  rhsContracting := [0]
  lhsNonContracting := [0]
  rhsNonContracting := [1]
  lhsBatch := []
  rhsBatch := []
  wf := dot_S8000x1280_S1280x512_S8000x512_1_0_0_1_n_n_wf
def gather_S20000x300_S200000x1_S200000x300_1_0_n_n_0_1_1300 : GatherDims S20000x300 S200000x1 S200000x300 where
  offsetDims := [1]
  collapsedSliceDims := [0]
  operandBatchingDims := []
  startIndicesBatchingDims := []
  startIndexMap := [0]
  indexVectorDim := 1
  sliceSizes := ![1, 300]
  wf := gather_S20000x300_S200000x1_S200000x300_1_0_n_n_0_1_1300_wf
def gather_S8000x512_S200000x1_S200000x512_1_0_n_n_0_1_1512 : GatherDims S8000x512 S200000x1 S200000x512 where
  offsetDims := [1]
  collapsedSliceDims := [0]
  operandBatchingDims := []
  startIndicesBatchingDims := []
  startIndexMap := [0]
  indexVectorDim := 1
  sliceSizes := ![1, 512]
  wf := gather_S8000x512_S200000x1_S200000x512_1_0_n_n_0_1_1512_wf
def dot_S200000x812_S812x5_S200000x5_1_0_0_1_n_n : DotDims S200000x812 S812x5 S200000x5 where
  lhsContracting := [1]
  rhsContracting := [0]
  lhsNonContracting := [0]
  rhsNonContracting := [1]
  lhsBatch := []
  rhsBatch := []
  wf := dot_S200000x812_S812x5_S200000x5_1_0_0_1_n_n_wf

class Facts : Prop extends Facts₀ where

variable [Facts]
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.TwoProducts.lean ====
/-
  Two matrix products added, plus one row added to every row.

  Both dense stages of the network have this shape: for a block of `M` rows, `x · u + y · v + b`, where `x` is
  `M × K₁`, `y` is `M × K₂`, `u` and `v` are `K₁ × N` and `K₂ × N`, and `b` is one row of `N` entries. At the ideal
  values a narrowing of the operands to a shorter format is the identity and a product into a zero accumulator is the
  plain sum over the contracted index, so entry `(p, q)` is
  `(∑ k, x (p, k) · u (k, q) + ∑ k, y (p, k) · v (k, q)) + b (0, q)`.

  Row `p` of the result depends on row `p` of `x` and of `y` only: computed on a block of rows, it is that block of the
  whole result (`twoProducts_of_rows`). That is all a row-tiled evaluation needs.
-/
import Idealize.ShloMosaic.PureOps.Ideal.Laws
import Idealize.ShloMosaic.Lib.ValueIdx
import Idealize.ShloMosaic.Lib.ValueLayout
import Idealize.ShloMosaic.Lib.Pipeline.Value
import proofs.«175469_j33303176413371_1_alg».proof.Proof.LibDot

noncomputable section

namespace Cert.Bipartite

open Idealize.ShloMosaic Idealize.ShloMosaic.ValueIdx Cert.GNN

variable {M K₁ K₂ N : ℕ}

/-- `x · u + y · v + b`, entry by entry, over the extended reals. -/
def twoProducts (x : FVec Ideal ⟨2, ![M, K₁]⟩ .f32) (y : FVec Ideal ⟨2, ![M, K₂]⟩ .f32)
    (u : FVec Ideal ⟨2, ![K₁, N]⟩ .f32) (v : FVec Ideal ⟨2, ![K₂, N]⟩ .f32) (b : FVec Ideal ⟨2, ![1, N]⟩ .f32) :
    FVec Ideal ⟨2, ![M, N]⟩ .f32 :=
  fun i => (∑ k : Fin K₁, x (ix2 (i 0) k) * u (ix2 k (i 1)) + ∑ k : Fin K₂, y (ix2 (i 0) k) * v (ix2 k (i 1)))
    + b (ix2 (0 : Fin 1) (i 1))

theorem twoProducts_apply (x : FVec Ideal ⟨2, ![M, K₁]⟩ .f32) (y : FVec Ideal ⟨2, ![M, K₂]⟩ .f32)
    (u : FVec Ideal ⟨2, ![K₁, N]⟩ .f32) (v : FVec Ideal ⟨2, ![K₂, N]⟩ .f32) (b : FVec Ideal ⟨2, ![1, N]⟩ .f32)
    (p : Fin M) (q : Fin N) :
    twoProducts x y u v b (ix2 p q)
      = (∑ k : Fin K₁, x (ix2 p k) * u (ix2 k q) + ∑ k : Fin K₂, y (ix2 p k) * v (ix2 k q)) + b (ix2 (0 : Fin 1) q) := rfl

/-- The two products, each of operands narrowed to the short format into a zero accumulator, added, and the row
    broadcast over the rows added: that is `twoProducts`. -/
theorem products_narrowed_eq (x : FVec Ideal ⟨2, ![M, K₁]⟩ .f32) (y : FVec Ideal ⟨2, ![M, K₂]⟩ .f32)
    (u : FVec Ideal ⟨2, ![K₁, N]⟩ .f32) (v : FVec Ideal ⟨2, ![K₂, N]⟩ .f32) (b : FVec Ideal ⟨2, ![1, N]⟩ .f32)
    (hb : (⟨2, ![1, N]⟩ : Shape).Broadcasts ⟨2, ![M, N]⟩) (hs : FTy.bf16.bits < FTy.f32.bits) :
    addf (addf
        (matmul (DotDims.plain M K₁ N) none (truncf .bf16 x hs) (truncf .bf16 u hs) (constant ⟨2, ![M, N]⟩ .f32 0x00000000#32))
        (matmul (DotDims.plain M K₂ N) none (truncf .bf16 y hs) (truncf .bf16 v hs) (constant ⟨2, ![M, N]⟩ .f32 0x00000000#32)))
      (broadcastTo ⟨2, ![M, N]⟩ b hb)
    = twoProducts x y u v b := by
  funext j
  obtain ⟨p, q, rfl⟩ : ∃ (p : Fin M) (q : Fin N), j = ix2 p q := ⟨j 0, j 1, eq_ix2 j⟩
  rw [twoProducts_apply]
  refine congrArg₂ (· + ·) (congrArg₂ (· + ·) ?_ ?_) ?_
  · exact matmul_plain_zero_apply none (truncf .bf16 x hs) (truncf .bf16 u hs) p q
  · exact matmul_plain_zero_apply none (truncf .bf16 y hs) (truncf .bf16 v hs) p q
  · exact broadcastTo_1b_ab_apply b hb p q

/-- Row `p` of a block whose rows are rows `r` of `x` and `y` gives row `r` of the whole result. -/
theorem twoProducts_of_rows {R : ℕ} (x : FVec Ideal ⟨2, ![M, K₁]⟩ .f32) (y : FVec Ideal ⟨2, ![M, K₂]⟩ .f32)
    (x' : FVec Ideal ⟨2, ![R, K₁]⟩ .f32) (y' : FVec Ideal ⟨2, ![R, K₂]⟩ .f32)
    (u : FVec Ideal ⟨2, ![K₁, N]⟩ .f32) (v : FVec Ideal ⟨2, ![K₂, N]⟩ .f32) (b : FVec Ideal ⟨2, ![1, N]⟩ .f32)
    (p : Fin R) (r : Fin M) (q : Fin N)
    (hx : ∀ k : Fin K₁, x' (ix2 p k) = x (ix2 r k)) (hy : ∀ k : Fin K₂, y' (ix2 p k) = y (ix2 r k)) :
    twoProducts x' y' u v b (ix2 p q) = twoProducts x y u v b (ix2 r q) := by
  rw [twoProducts_apply, twoProducts_apply]
  simp only [hx, hy]

end Cert.Bipartite

end
-- ==== Proof.SageRegion.lean ====
/-
  The first dense stage (the node update), at the ideal values: what the row-tiled evaluation leaves in its result array.

  The stage computes `mean · Wl + xp · Wr + bl` for 8000 rows, 1000 rows at a grid point; the weights and the bias row are
  the same at every point. Point `t` loads rows `1000 t … 1000 t + 999` of `mean` and of `xp`, forms the two products
  (operands narrowed to the short format, which is the identity at the ideal values; each product into a zero accumulator),
  adds them and the bias row, and writes rows `1000 t … 1000 t + 999` of the result. Since a row of the result depends
  only on the same row of `mean` and `xp`, the block written at point `t` is block `t` of the whole-array function
  `twoProducts mean xp Wl Wr bl`, and the eight blocks cover the 8000 rows: the result array ends holding exactly that
  function of the arrays the stage was entered with.
-/
import proofs.«175469_j33303176413371_1_alg».proof.Proof.Gen.KernelIdeal.Frame
import proofs.«175469_j33303176413371_1_alg».proof.Proof.TwoProducts
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.SageRegion

open Cert.KernelIdeal Cert.KernelIdeal.Gen Cert.Bipartite

-- the buffer contents the stage is entered with: any
variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its five loaded blocks is `twoProducts` of them. -/
theorem pay_eq (x0 : FVec Ideal S1000x300 .f32) (x1 : FVec Ideal S1000x1280 .f32) (x2 : FVec Ideal S300x512 .f32)
    (x3 : FVec Ideal S1280x512 .f32) (x4 : FVec Ideal S1x512 .f32) :
    k0_pay1 (F := Ideal) x0 x1 x2 x3 x4 = twoProducts x0 x1 x2 x3 x4 := by
  unfold k0_pay1
  simp only [shapeCast_self]
  exact products_narrowed_eq x0 x1 x2 x3 x4 _ _

/-- Where each window's block sits at point `t`: the two row-tiled inputs and the output at block row `t`, the
    weights and the bias row at their one block. Decided over the eight points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 8 := by
  have h := t.isLt
  have hN : cfg0.N = 8 := N_0
  omega

/-- Row `p` of block `t` is row `1000 t + p` of the array. -/
theorem row_lt (t : Fin cfg0.N) (p : Fin 1000) : t.val * 1000 + p.val < 8000 := by
  have := point_lt t; omega

abbrev rowAt (t : Fin cfg0.N) (p : Fin 1000) : Fin 8000 := ⟨t.val * 1000 + p.val, row_lt t p⟩

/-- The first input's block at point `t`, read at `(p, k)`, is the array at row `1000 t + p`. -/
theorem meanBlk_apply (c : Dev nD) (t : Fin cfg0.N) (p : Fin 1000) (k : Fin 300) :
    (iblk0 V c 0 t : FVec Ideal S1000x300 .f32) (ix2 p k) = (V c main_v17 : FVec Ideal S8000x300 .f32) (ix2 (rowAt t p) k) := by
  obtain ⟨e0, e1, -⟩ := idx_facts t
  unfold iblk0
  rw [View.read_apply]
  show V c main_v17 _ = V c main_v17 _
  congr 1
  funext a
  apply Fin.ext
  match a with
  | ⟨0, _⟩ => show win0_0.index t (0 : Fin 2) * 1000 + 1 * p.val = t.val * 1000 + p.val; rw [e0]; omega
  | ⟨1, _⟩ => show win0_0.index t (1 : Fin 2) * 300 + 1 * k.val = k.val; rw [e1]; omega

/-- The second input's block at point `t`, read at `(p, k)`, is the array at row `1000 t + p`. -/
theorem protBlk_apply (c : Dev nD) (t : Fin cfg0.N) (p : Fin 1000) (k : Fin 1280) :
    (iblk0 V c 1 t : FVec Ideal S1000x1280 .f32) (ix2 p k) = (V c main_arg1 : FVec Ideal S8000x1280 .f32) (ix2 (rowAt t p) k) := by
  obtain ⟨-, -, e0, e1, -⟩ := idx_facts t
  unfold iblk0
  rw [View.read_apply]
  show V c main_arg1 _ = V c main_arg1 _
  congr 1
  funext a
  apply Fin.ext
  match a with
  | ⟨0, _⟩ => show win0_1.index t (0 : Fin 2) * 1000 + 1 * p.val = t.val * 1000 + p.val; rw [e0]; omega
  | ⟨1, _⟩ => show win0_1.index t (1 : Fin 2) * 1280 + 1 * k.val = k.val; rw [e1]; omega

/-- The weights' and the bias row's one block is the whole array, at every point. -/
theorem wlBlk_eq (c : Dev nD) (t : Fin cfg0.N) : (iblk0 V c 2 t : FVec Ideal S300x512 .f32) = V c main_v18 := by
  obtain ⟨-, -, -, -, e0, e1, -⟩ := idx_facts t
  funext y
  unfold iblk0
  rw [View.read_apply]
  show V c main_v18 _ = V c main_v18 y
  congr 1
  funext a
  apply Fin.ext
  match a with
  | ⟨0, _⟩ => show win0_2.index t (0 : Fin 2) * 300 + 1 * (y 0).val = (y 0).val; rw [e0]; omega
  | ⟨1, _⟩ => show win0_2.index t (1 : Fin 2) * 512 + 1 * (y 1).val = (y 1).val; rw [e1]; omega

theorem wrBlk_eq (c : Dev nD) (t : Fin cfg0.N) : (iblk0 V c 3 t : FVec Ideal S1280x512 .f32) = V c main_v19 := by
  obtain ⟨-, -, -, -, -, -, e0, e1, -⟩ := idx_facts t
  funext y
  unfold iblk0
  rw [View.read_apply]
  show V c main_v19 _ = V c main_v19 y
  congr 1
  funext a
  apply Fin.ext
  match a with
  | ⟨0, _⟩ => show win0_3.index t (0 : Fin 2) * 1280 + 1 * (y 0).val = (y 0).val; rw [e0]; omega
  | ⟨1, _⟩ => show win0_3.index t (1 : Fin 2) * 512 + 1 * (y 1).val = (y 1).val; rw [e1]; omega

theorem biasBlk_eq (c : Dev nD) (t : Fin cfg0.N) : (iblk0 V c 4 t : FVec Ideal S1x512 .f32) = V c main_v20 := by
  obtain ⟨-, -, -, -, -, -, -, -, e0, e1, -⟩ := idx_facts t
  funext y
  unfold iblk0
  rw [View.read_apply]
  show V c main_v20 _ = V c main_v20 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

/-- The node update of the arrays the stage is entered with. -/
abbrev update (c : Dev nD) : FVec Ideal S8000x512 .f32 :=
  twoProducts (V c main_v17) (V c main_arg1) (V c main_v18) (V c main_v19) (V c main_v20)

/-- WHAT POINT `t` WRITES BACK is block `t` of the node update. -/
theorem flushed_eq (c : Dev nD) (t : Fin cfg0.N) :
    (dat0 V c).flushed 5 t = ((cfg0.win 5).blk t).view.read (Elt Ideal) (update V c) := by
  show (cfg0.win 5).cut (grid0.coords t) ((dat0 V c).after 5 t) = _
  rw [after0_5]
  unfold out0_5
  rw [View.canon_unit_zero hz]
  simp only [View.ld_unit_zero (S := S1000x300) hz, View.ld_unit_zero (S := S1000x1280) hz,
    View.ld_unit_zero (S := S300x512) hz, View.ld_unit_zero (S := S1280x512) hz, View.ld_unit_zero (S := S1x512) hz]
  obtain ⟨-, -, -, -, -, -, -, -, -, -, e0, e1⟩ := idx_facts t
  funext j
  obtain ⟨p, q, rfl⟩ : ∃ (p : Fin 1000) (q : Fin 512), j = ix2 p q := ⟨j 0, j 1, eq_ix2 j⟩
  have hemb : ((cfg0.win 5).blk t).view.emb (ix2 p q) = (ix2 (rowAt t p) q : S8000x512.Idx) := by
    funext a
    apply Fin.ext
    match a with
    | ⟨0, _⟩ => show win0_5.index t (0 : Fin 2) * 1000 + 1 * p.val = t.val * 1000 + p.val; rw [e0]; omega
    | ⟨1, _⟩ => show win0_5.index t (1 : Fin 2) * 512 + 1 * q.val = q.val; rw [e1]; omega
  show k0_pay1 (F := Ideal) (iblk0 V c 0 t) (iblk0 V c 1 t) (iblk0 V c 2 t) (iblk0 V c 3 t) (iblk0 V c 4 t) (ix2 p q)
    = update V c (((cfg0.win 5).blk t).view.emb (ix2 p q))
  rw [hemb]
  refine (congrFun (pay_eq (iblk0 V c 0 t) (iblk0 V c 1 t) (iblk0 V c 2 t) (iblk0 V c 3 t) (iblk0 V c 4 t)) (ix2 p q)).trans ?_
  rw [wlBlk_eq V c t, wrBlk_eq V c t, biasBlk_eq V c t]
  exact twoProducts_of_rows (V c main_v17) (V c main_arg1) (iblk0 V c 0 t) (iblk0 V c 1 t) (V c main_v18) (V c main_v19)
    (V c main_v20) p (rowAt t p) q (meanBlk_apply V c t p) (protBlk_apply V c t p)

/-- An index of the result array is in point `t`'s block iff each coordinate is in the block's range on its axis. -/
theorem mem_blk (t : Fin cfg0.N) (i : S8000x512.Idx) :
    i ∈ ((cfg0.win 5).blk t).view.set ↔ ∀ a : Fin 2, win0_5.index t a * S1000x512.size a ≤ (i a).val ∧ (i a).val < win0_5.index t a * S1000x512.size a + S1000x512.size a := by
  show i ∈ ((View.whole main_v21).slice (win0_5.rect t)).set ↔ _
  rw [View.set_slice_whole, Rect.mem_set_unit]
  exact Iff.rfl

/-- Every block row is some point's. -/
theorem idx_onto : ∀ q0 : Fin 8, ∃ t : Fin cfg0.N, t.val = q0.val :=
  (by decide +kernel : ∀ q0 : Fin 8, ∃ t : Fin grid0.N, t.val = q0.val)

/-- THE ARRAY after the stage: the node update of the arrays it was entered with (row `r` is in block `r / 1000`). -/
theorem final (c : Dev nD) : (dat0 V c).arrAt 5 cfg0.N = update V c :=
  (dat0 V c).arrAt_eq_of_cover 5 (update V c) (fun t _ => flushed_eq V c t) fun i => by
    have hi0 : (i 0).val < 8000 := (i 0).isLt
    have hi1 : (i 1).val < 512 := (i 1).isLt
    obtain ⟨t, ht⟩ := idx_onto ⟨(i 0).val / 1000, by omega⟩
    have ht' : t.val = (i 0).val / 1000 := ht
    obtain ⟨-, -, -, -, -, -, -, -, -, -, e0, e1⟩ := idx_facts t
    refine ⟨t, flush0_5 t, ?_⟩
    rw [mem_blk]
    intro a
    match a with
    | ⟨0, _⟩ => show win0_5.index t (0 : Fin 2) * 1000 ≤ (i 0).val ∧ (i 0).val < win0_5.index t (0 : Fin 2) * 1000 + 1000; rw [e0]; omega
    | ⟨1, _⟩ => show win0_5.index t (1 : Fin 2) * 512 ≤ (i 1).val ∧ (i 1).val < win0_5.index t (1 : Fin 2) * 512 + 512; rw [e1]; omega

end Cert.KernelIdeal.SageRegion

end
-- ==== Proof.EdgeRegion.lean ====
/-
  The second dense stage (the edge classifier), at the ideal values: what the row-tiled evaluation leaves in its result array.

  The stage computes `d · Wd + p · Wp + b` for 200000 labelled edges, 2000 edges at a grid point, where `d` holds the
  edges' source features (300 each), `p` their destination embeddings (512 each), `Wd` and `Wp` are the two column
  groups of the classifier's weights, transposed, and `b` is its bias row. Point `t` loads rows `2000 t … 2000 t + 1999`
  of `d` and of `p`, forms the two products (operands narrowed to the short format, the identity at the ideal values;
  each product into a zero accumulator), adds them and the bias row, and writes rows `2000 t … 2000 t + 1999` of the
  result. A row of the result depends only on the same row of `d` and `p`, so the block written at point `t` is block `t`
  of `twoProducts d p Wd Wp b`, and the hundred blocks cover the 200000 rows.
-/
import proofs.«175469_j33303176413371_1_alg».proof.Proof.Gen.KernelIdeal.Frame
import proofs.«175469_j33303176413371_1_alg».proof.Proof.TwoProducts
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.EdgeRegion

open Cert.KernelIdeal Cert.KernelIdeal.Gen Cert.Bipartite

-- the buffer contents the stage is entered with: any
variable (V : (c : Dev nD) → (b : Ref sig .tc) → Buf (Elt Ideal) ((c : Thread nD τ).loc b))

theorem hz : (![0, 0] : Fin 2 → Nat) = fun _ => 0 := funext fun a => by fin_cases a <;> rfl

/-- The body's arithmetic on its five loaded blocks is `twoProducts` of them. -/
theorem pay_eq (x0 : FVec Ideal S2000x300 .f32) (x1 : FVec Ideal S2000x512 .f32) (x2 : FVec Ideal S300x5 .f32)
    (x3 : FVec Ideal S512x5 .f32) (x4 : FVec Ideal S1x5 .f32) :
    k1_pay1 (F := Ideal) x0 x1 x2 x3 x4 = twoProducts x0 x1 x2 x3 x4 := by
  unfold k1_pay1
  simp only [shapeCast_self]
  exact products_narrowed_eq x0 x1 x2 x3 x4 _ _

/-- Where each window's block sits at point `t`: the two row-tiled inputs and the output at block row `t`, the
    weights and the bias row at their one block. Decided over the hundred points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 100 := by
  have h := t.isLt
  have hN : cfg1.N = 100 := N_1
  omega

/-- Row `p` of block `t` is row `2000 t + p` of the array. -/
theorem row_lt (t : Fin cfg1.N) (p : Fin 2000) : t.val * 2000 + p.val < 200000 := by
  have := point_lt t; omega

abbrev rowAt (t : Fin cfg1.N) (p : Fin 2000) : Fin 200000 := ⟨t.val * 2000 + p.val, row_lt t p⟩

/-- The source-feature block at point `t`, read at `(p, k)`, is the array at row `2000 t + p`. -/
theorem srcBlk_apply (c : Dev nD) (t : Fin cfg1.N) (p : Fin 2000) (k : Fin 300) :
    (iblk1 V c 0 t : FVec Ideal S2000x300 .f32) (ix2 p k) = (V c main_v28 : FVec Ideal S200000x300 .f32) (ix2 (rowAt t p) k) := by
  obtain ⟨e0, e1, -⟩ := idx_facts t
  unfold iblk1
  rw [View.read_apply]
  show V c main_v28 _ = V c main_v28 _
  congr 1
  funext a
  apply Fin.ext
  match a with
  | ⟨0, _⟩ => show win1_0.index t (0 : Fin 2) * 2000 + 1 * p.val = t.val * 2000 + p.val; rw [e0]; omega
  | ⟨1, _⟩ => show win1_0.index t (1 : Fin 2) * 300 + 1 * k.val = k.val; rw [e1]; omega

/-- The destination-embedding block at point `t`, read at `(p, k)`, is the array at row `2000 t + p`. -/
theorem dstBlk_apply (c : Dev nD) (t : Fin cfg1.N) (p : Fin 2000) (k : Fin 512) :
    (iblk1 V c 1 t : FVec Ideal S2000x512 .f32) (ix2 p k) = (V c main_v35 : FVec Ideal S200000x512 .f32) (ix2 (rowAt t p) k) := by
  obtain ⟨-, -, e0, e1, -⟩ := idx_facts t
  unfold iblk1
  rw [View.read_apply]
  show V c main_v35 _ = V c main_v35 _
  congr 1
  funext a
  apply Fin.ext
  match a with
  | ⟨0, _⟩ => show win1_1.index t (0 : Fin 2) * 2000 + 1 * p.val = t.val * 2000 + p.val; rw [e0]; omega
  | ⟨1, _⟩ => show win1_1.index t (1 : Fin 2) * 512 + 1 * k.val = k.val; rw [e1]; omega

/-- The weights' and the bias row's one block is the whole array, at every point. -/
theorem wdBlk_eq (c : Dev nD) (t : Fin cfg1.N) : (iblk1 V c 2 t : FVec Ideal S300x5 .f32) = V c main_v37 := by
  obtain ⟨-, -, -, -, e0, e1, -⟩ := idx_facts t
  funext y
  unfold iblk1
  rw [View.read_apply]
  show V c main_v37 _ = V c main_v37 y
  congr 1
  funext a
  apply Fin.ext
  match a with
  | ⟨0, _⟩ => show win1_2.index t (0 : Fin 2) * 300 + 1 * (y 0).val = (y 0).val; rw [e0]; omega
  | ⟨1, _⟩ => show win1_2.index t (1 : Fin 2) * 5 + 1 * (y 1).val = (y 1).val; rw [e1]; omega

theorem wpBlk_eq (c : Dev nD) (t : Fin cfg1.N) : (iblk1 V c 3 t : FVec Ideal S512x5 .f32) = V c main_v39 := by
  obtain ⟨-, -, -, -, -, -, e0, e1, -⟩ := idx_facts t
  funext y
  unfold iblk1
  rw [View.read_apply]
  show V c main_v39 _ = V c main_v39 y
  congr 1
  funext a
  apply Fin.ext
  match a with
  | ⟨0, _⟩ => show win1_3.index t (0 : Fin 2) * 512 + 1 * (y 0).val = (y 0).val; rw [e0]; omega
  | ⟨1, _⟩ => show win1_3.index t (1 : Fin 2) * 5 + 1 * (y 1).val = (y 1).val; rw [e1]; omega

theorem biasBlk_eq (c : Dev nD) (t : Fin cfg1.N) : (iblk1 V c 4 t : FVec Ideal S1x5 .f32) = V c main_v40 := by
  obtain ⟨-, -, -, -, -, -, -, -, e0, e1, -⟩ := idx_facts t
  funext y
  unfold iblk1
  rw [View.read_apply]
  show V c main_v40 _ = V c main_v40 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 5 + 1 * (y 1).val = (y 1).val; rw [e1]; omega

/-- The edge scores of the arrays the stage is entered with. -/
abbrev scores (c : Dev nD) : FVec Ideal S200000x5 .f32 :=
  twoProducts (V c main_v28) (V c main_v35) (V c main_v37) (V c main_v39) (V c main_v40)

/-- WHAT POINT `t` WRITES BACK is block `t` of the edge scores. -/
theorem flushed_eq (c : Dev nD) (t : Fin cfg1.N) :
    (dat1 V c).flushed 5 t = ((cfg1.win 5).blk t).view.read (Elt Ideal) (scores V c) := by
  show (cfg1.win 5).cut (grid1.coords t) ((dat1 V c).after 5 t) = _
  rw [after1_5]
  unfold out1_5
  rw [View.canon_unit_zero hz]
  simp only [View.ld_unit_zero (S := S2000x300) hz, View.ld_unit_zero (S := S2000x512) hz,
    View.ld_unit_zero (S := S300x5) hz, View.ld_unit_zero (S := S512x5) hz, View.ld_unit_zero (S := S1x5) hz]
  obtain ⟨-, -, -, -, -, -, -, -, -, -, e0, e1⟩ := idx_facts t
  funext j
  obtain ⟨p, q, rfl⟩ : ∃ (p : Fin 2000) (q : Fin 5), j = ix2 p q := ⟨j 0, j 1, eq_ix2 j⟩
  have hemb : ((cfg1.win 5).blk t).view.emb (ix2 p q) = (ix2 (rowAt t p) q : S200000x5.Idx) := by
    funext a
    apply Fin.ext
    match a with
    | ⟨0, _⟩ => show win1_5.index t (0 : Fin 2) * 2000 + 1 * p.val = t.val * 2000 + p.val; rw [e0]; omega
    | ⟨1, _⟩ => show win1_5.index t (1 : Fin 2) * 5 + 1 * q.val = q.val; rw [e1]; omega
  show k1_pay1 (F := Ideal) (iblk1 V c 0 t) (iblk1 V c 1 t) (iblk1 V c 2 t) (iblk1 V c 3 t) (iblk1 V c 4 t) (ix2 p q)
    = scores V c (((cfg1.win 5).blk t).view.emb (ix2 p q))
  rw [hemb]
  refine (congrFun (pay_eq (iblk1 V c 0 t) (iblk1 V c 1 t) (iblk1 V c 2 t) (iblk1 V c 3 t) (iblk1 V c 4 t)) (ix2 p q)).trans ?_
  rw [wdBlk_eq V c t, wpBlk_eq V c t, biasBlk_eq V c t]
  exact twoProducts_of_rows (V c main_v28) (V c main_v35) (iblk1 V c 0 t) (iblk1 V c 1 t) (V c main_v37) (V c main_v39)
    (V c main_v40) p (rowAt t p) q (srcBlk_apply V c t p) (dstBlk_apply V c t p)

/-- An index of the result array is in point `t`'s block iff each coordinate is in the block's range on its axis. -/
theorem mem_blk (t : Fin cfg1.N) (i : S200000x5.Idx) :
    i ∈ ((cfg1.win 5).blk t).view.set ↔ ∀ a : Fin 2, win1_5.index t a * S2000x5.size a ≤ (i a).val ∧ (i a).val < win1_5.index t a * S2000x5.size a + S2000x5.size a := by
  show i ∈ ((View.whole main_v41).slice (win1_5.rect t)).set ↔ _
  rw [View.set_slice_whole, Rect.mem_set_unit]
  exact Iff.rfl

/-- Every block row is some point's. -/
theorem idx_onto : ∀ q0 : Fin 100, ∃ t : Fin cfg1.N, t.val = q0.val :=
  (by decide +kernel : ∀ q0 : Fin 100, ∃ t : Fin grid1.N, t.val = q0.val)

/-- THE ARRAY after the stage: the edge scores of the arrays it was entered with (row `r` is in block `r / 2000`). -/
theorem final (c : Dev nD) : (dat1 V c).arrAt 5 cfg1.N = scores V c :=
  (dat1 V c).arrAt_eq_of_cover 5 (scores V c) (fun t _ => flushed_eq V c t) fun i => by
    have hi0 : (i 0).val < 200000 := (i 0).isLt
    have hi1 : (i 1).val < 5 := (i 1).isLt
    obtain ⟨t, ht⟩ := idx_onto ⟨(i 0).val / 2000, by omega⟩
    have ht' : t.val = (i 0).val / 2000 := ht
    obtain ⟨-, -, -, -, -, -, -, -, -, -, e0, e1⟩ := idx_facts t
    refine ⟨t, flush1_5 t, ?_⟩
    rw [mem_blk]
    intro a
    match a with
    | ⟨0, _⟩ => show win1_5.index t (0 : Fin 2) * 2000 ≤ (i 0).val ∧ (i 0).val < win1_5.index t (0 : Fin 2) * 2000 + 2000; rw [e0]; omega
    | ⟨1, _⟩ => show win1_5.index t (1 : Fin 2) * 5 ≤ (i 1).val ∧ (i 1).val < win1_5.index t (1 : Fin 2) * 5 + 5; rw [e1]; omega

end Cert.KernelIdeal.EdgeRegion

end
-- ==== Proof.HostBefore.lean ====
/-
  The host operations before the first dense stage, read at the ideal values over ANY starting contents `W`.

  These operations are, one for one, the reference's own: the edge sources are brought into range, the source features
  gathered and summed per destination node, the incoming edges counted, the count clipped below at one, and the sums
  divided by it — the mean of each node's neighbours — and then the two weight matrices are transposed and the bias is
  laid out as one row. So each buffer the first stage reads holds the value the reference's corresponding operation
  produces from the same arguments, stated here with the reference's stage functions (`val_main_v…`) so that the shared
  chain is never opened: the gather, the two scatter-adds and the division stay folded.
-/
import proofs.«175469_j33303176413371_1_alg».proof.Proof.Gen.KernelIdeal.Frame
import proofs.«175469_j33303176413371_1_alg».proof.Proof.Gen.ReferenceIdeal.Read
import Idealize.ShloMosaic.Lib.StableHlo.Run
import Idealize.ShloMosaic.PureOps.Ideal

set_option maxRecDepth 16384

noncomputable section

namespace Cert.KernelIdeal.HostBefore

open Cert.KernelIdeal Cert.KernelIdeal.Gen Idealize.ShloMosaic Idealize.ShloMosaic.TcCoe Idealize.SL.Sem Idealize.ShloMosaic.StableHlo
open Cert.ReferenceIdeal.Read

-- the buffer contents the operations start from: any
variable (W : Valuation τ sig (Elt Ideal))

/-- The contents after the three stretches of host operations before the first stage. -/
abbrev entry0 : Valuation τ sig (Elt Ideal) :=
  StableHlo.after (hostOps0_2 (F := Ideal)) (StableHlo.after (hostOps0_1 (F := Ideal)) (StableHlo.after (hostOps0 (F := Ideal)) W))

/-! ## First stretch: the sums, the counts, the clip's bound -/

set_option maxHeartbeats 1000000 in
/-- The per-node sums of gathered source features. -/
theorem sums_eq :
    (StableHlo.after (hostOps0 (F := Ideal)) W (Proc.devRef .tc main_v9) : FVec Ideal S8000x300 .f32)
      = val_main_v9 (F := Ideal) (W (Proc.devRef .tc main_arg0)) (W (Proc.devRef .tc main_arg2)) (W (Proc.devRef .tc main_arg3)) := by
  dsimp only [hostOps0]
  after_results
  rfl

set_option maxHeartbeats 1000000 in
/-- The per-node counts of incoming edges. -/
theorem counts_eq :
    (StableHlo.after (hostOps0 (F := Ideal)) W (Proc.devRef .tc main_v13) : FVec Ideal S8000 .f32)
      = val_main_v13 (F := Ideal) (W (Proc.devRef .tc main_arg3)) := by
  dsimp only [hostOps0]
  after_results
  rfl

set_option maxHeartbeats 1000000 in
/-- The clip's lower bound, one. -/
theorem bound_eq :
    (StableHlo.after (hostOps0 (F := Ideal)) W (Proc.devRef .tc main_cst_3) : FVec Ideal S_ .f32) = val_main_cst_3 (F := Ideal) := by
  dsimp only [hostOps0]
  after_results
  rfl

/-! ## Second stretch: the clip -/

set_option maxHeartbeats 1000000 in
/-- The clipped counts: the larger of the bound, broadcast, and the count. -/
theorem clipped_eq :
    (StableHlo.after (hostOps0_1 (F := Ideal)) W (Proc.devRef .tc main_v14) : FVec Ideal S8000 .f32)
      = maximumf (F := Ideal) (φ := .f32) (broadcastInDim S8000 ![] bcast_S_S8000 (W (Proc.devRef .tc main_cst_3) : FVec Ideal S_ .f32))
          (W (Proc.devRef .tc main_v13) : FVec Ideal S8000 .f32) := by
  dsimp only [hostOps0_1]
  after_results
  rfl

set_option maxHeartbeats 1000000 in
/-- The clip leaves the sums alone. -/
theorem clip_keeps_sums :
    (StableHlo.after (hostOps0_1 (F := Ideal)) W (Proc.devRef .tc main_v9) : FVec Ideal S8000x300 .f32) = W (Proc.devRef .tc main_v9) := by
  dsimp only [hostOps0_1]
  after_results

/-! ## Third stretch: the division, the transposes, the bias row -/

set_option maxHeartbeats 1000000 in
/-- The means: the sums divided by the clipped counts, broadcast along each row. -/
theorem divided_eq :
    (StableHlo.after (hostOps0_2 (F := Ideal)) W (Proc.devRef .tc main_v17) : FVec Ideal S8000x300 .f32)
      = Host.divf (F := Ideal) (φ := .f32) (W (Proc.devRef .tc main_v9) : FVec Ideal S8000x300 .f32)
          (broadcastInDim S8000x300 ![0, 1] bcast_S8000x1_S8000x300_0_1
            (broadcastInDim S8000x1 ![0] bcast_S8000_S8000x1_0 (W (Proc.devRef .tc main_v14) : FVec Ideal S8000 .f32))) := by
  dsimp only [hostOps0_2]
  after_results

/-! ## What the first stage is entered with -/

/-- The first input: the reference's mean of the arguments. -/
theorem entry0_mean :
    (entry0 W (Proc.devRef .tc main_v17) : FVec Ideal S8000x300 .f32)
      = val_main_v17 (F := Ideal) (W (Proc.devRef .tc main_arg0)) (W (Proc.devRef .tc main_arg2)) (W (Proc.devRef .tc main_arg3)) :=
  calc (entry0 W (Proc.devRef .tc main_v17) : FVec Ideal S8000x300 .f32)
      = Host.divf (F := Ideal) (φ := .f32)
          (StableHlo.after (hostOps0_1 (F := Ideal)) (StableHlo.after (hostOps0 (F := Ideal)) W) (Proc.devRef .tc main_v9) : FVec Ideal S8000x300 .f32)
          (broadcastInDim S8000x300 ![0, 1] bcast_S8000x1_S8000x300_0_1
            (broadcastInDim S8000x1 ![0] bcast_S8000_S8000x1_0
              (StableHlo.after (hostOps0_1 (F := Ideal)) (StableHlo.after (hostOps0 (F := Ideal)) W) (Proc.devRef .tc main_v14) : FVec Ideal S8000 .f32))) :=
        divided_eq (StableHlo.after (hostOps0_1 (F := Ideal)) (StableHlo.after (hostOps0 (F := Ideal)) W))
    _ = Host.divf (F := Ideal) (φ := .f32)
          (val_main_v9 (F := Ideal) (W (Proc.devRef .tc main_arg0)) (W (Proc.devRef .tc main_arg2)) (W (Proc.devRef .tc main_arg3)))
          (broadcastInDim S8000x300 ![0, 1] bcast_S8000x1_S8000x300_0_1
            (broadcastInDim S8000x1 ![0] bcast_S8000_S8000x1_0
              (maximumf (F := Ideal) (φ := .f32) (broadcastInDim S8000 ![] bcast_S_S8000 (val_main_cst_3 (F := Ideal)))
                (val_main_v13 (F := Ideal) (W (Proc.devRef .tc main_arg3)))))) := by
        rw [clip_keeps_sums (StableHlo.after (hostOps0 (F := Ideal)) W), clipped_eq (StableHlo.after (hostOps0 (F := Ideal)) W),
          sums_eq W, counts_eq W, bound_eq W]
    _ = val_main_v17 (F := Ideal) (W (Proc.devRef .tc main_arg0)) (W (Proc.devRef .tc main_arg2)) (W (Proc.devRef .tc main_arg3)) := rfl

set_option maxHeartbeats 1000000 in
/-- The second input: the node features, untouched. -/
theorem entry0_prot :
    (entry0 W (Proc.devRef .tc main_arg1) : FVec Ideal S8000x1280 .f32) = W (Proc.devRef .tc main_arg1) := by
  dsimp only [entry0, hostOps0, hostOps0_1, hostOps0_2]
  after_results

set_option maxHeartbeats 1000000 in
/-- The first weight matrix, transposed. -/
theorem entry0_wl :
    (entry0 W (Proc.devRef .tc main_v18) : FVec Ideal S300x512 .f32) = val_main_v18 (F := Ideal) (W (Proc.devRef .tc main_arg6)) := by
  dsimp only [entry0, hostOps0, hostOps0_1, hostOps0_2]
  after_results
  rfl

set_option maxHeartbeats 1000000 in
/-- The second weight matrix, transposed. -/
theorem entry0_wr :
    (entry0 W (Proc.devRef .tc main_v19) : FVec Ideal S1280x512 .f32) = val_main_v23 (F := Ideal) (W (Proc.devRef .tc main_arg8)) := by
  dsimp only [entry0, hostOps0, hostOps0_1, hostOps0_2]
  after_results
  rfl

set_option maxHeartbeats 1000000 in
/-- The bias as one row. -/
theorem entry0_bias :
    (entry0 W (Proc.devRef .tc main_v20) : FVec Ideal S1x512 .f32)
      = shapeCast S1x512 (W (Proc.devRef .tc main_arg7) : FVec Ideal S512 .f32) shapeCasts_S512_S1x512 := by
  dsimp only [entry0, hostOps0, hostOps0_1, hostOps0_2]
  after_results
  rfl

/-! ## The arguments the later operations read are untouched -/

set_option maxHeartbeats 1000000 in
theorem entry0_arg0 : (entry0 W (Proc.devRef .tc main_arg0) : FVec Ideal S20000x300 .f32) = W (Proc.devRef .tc main_arg0) := by
  dsimp only [entry0, hostOps0, hostOps0_1, hostOps0_2]
  after_results

set_option maxHeartbeats 1000000 in
theorem entry0_arg4 : (entry0 W (Proc.devRef .tc main_arg4) : IVec S200000 32) = W (Proc.devRef .tc main_arg4) := by
  dsimp only [entry0, hostOps0, hostOps0_1, hostOps0_2]
  after_results

set_option maxHeartbeats 1000000 in
theorem entry0_arg5 : (entry0 W (Proc.devRef .tc main_arg5) : IVec S200000 32) = W (Proc.devRef .tc main_arg5) := by
  dsimp only [entry0, hostOps0, hostOps0_1, hostOps0_2]
  after_results

set_option maxHeartbeats 1000000 in
theorem entry0_arg9 : (entry0 W (Proc.devRef .tc main_arg9) : FVec Ideal S5x812 .f32) = W (Proc.devRef .tc main_arg9) := by
  dsimp only [entry0, hostOps0, hostOps0_1, hostOps0_2]
  after_results

set_option maxHeartbeats 1000000 in
theorem entry0_arg10 : (entry0 W (Proc.devRef .tc main_arg10) : FVec Ideal S5 .f32) = W (Proc.devRef .tc main_arg10) := by
  dsimp only [entry0, hostOps0, hostOps0_1, hostOps0_2]
  after_results

end Cert.KernelIdeal.HostBefore

end
-- ==== Proof.HostBetween.lean ====
/-
  The host operations between the two dense stages, read at the ideal values over ANY starting contents `W`.

  The labelled edges' endpoints are brought into range and their rows gathered — source features from the first
  argument, destination embeddings from the first stage's result — exactly as the reference gathers them; the
  classifier's weight matrix is cut into its first 300 and last 512 columns, each transposed; its bias is laid out as one
  row. The two gathers are stated with the reference's own stage functions and never opened.
-/
import proofs.«175469_j33303176413371_1_alg».proof.Proof.Gen.KernelIdeal.Frame
import proofs.«175469_j33303176413371_1_alg».proof.Proof.Gen.ReferenceIdeal.Read
import Idealize.ShloMosaic.Lib.StableHlo.Run
import Idealize.ShloMosaic.PureOps.Ideal

set_option maxRecDepth 16384

noncomputable section

namespace Cert.KernelIdeal.HostBetween

open Cert.KernelIdeal Cert.KernelIdeal.Gen Idealize.ShloMosaic Idealize.ShloMosaic.TcCoe Idealize.SL.Sem Idealize.ShloMosaic.StableHlo
open Cert.ReferenceIdeal.Read

-- the buffer contents the operations start from: any
variable (W : Valuation τ sig (Elt Ideal))

set_option maxHeartbeats 1000000 in
/-- The labelled edges' source features. -/
theorem src_eq :
    (StableHlo.after (hostOps1 (F := Ideal)) W (Proc.devRef .tc main_v28) : FVec Ideal S200000x300 .f32)
      = val_main_v32 (F := Ideal) (W (Proc.devRef .tc main_arg0)) (W (Proc.devRef .tc main_arg4)) := by
  dsimp only [hostOps1]
  after_results
  rfl

set_option maxHeartbeats 1000000 in
/-- The labelled edges' destination embeddings: rows of the first stage's result, gathered as the reference gathers them. -/
theorem dst_eq :
    (StableHlo.after (hostOps1 (F := Ideal)) W (Proc.devRef .tc main_v35) : FVec Ideal S200000x512 .f32)
      = Host.gather Cert.ReferenceIdeal.gather_S8000x512_S200000x1_S200000x512_1_0_n_n_0_1_1512
          (W (Proc.devRef .tc main_v21) : FVec Ideal S8000x512 .f32) (val_main_v38 (F := Ideal) (W (Proc.devRef .tc main_arg5))) := by
  dsimp only [hostOps1]
  after_results
  rfl

set_option maxHeartbeats 1000000 in
/-- The first 300 columns of the classifier's weights, transposed. -/
theorem wd_eq :
    (StableHlo.after (hostOps1 (F := Ideal)) W (Proc.devRef .tc main_v37) : FVec Ideal S300x5 .f32)
      = transpose S300x5 [1, 0] (extractStridedSlice S5x300 ![0, 0] (W (Proc.devRef .tc main_arg9) : FVec Ideal S5x812 .f32) slices_S5x812_S5x300_0_0)
          transposes_S5x300_S300x5_1_0 := by
  dsimp only [hostOps1]
  after_results

set_option maxHeartbeats 1000000 in
/-- The last 512 columns of the classifier's weights, transposed. -/
theorem wp_eq :
    (StableHlo.after (hostOps1 (F := Ideal)) W (Proc.devRef .tc main_v39) : FVec Ideal S512x5 .f32)
      = transpose S512x5 [1, 0] (extractStridedSlice S5x512 ![0, 300] (W (Proc.devRef .tc main_arg9) : FVec Ideal S5x812 .f32) slices_S5x812_S5x512_0_300)
          transposes_S5x512_S512x5_1_0 := by
  dsimp only [hostOps1]
  after_results

set_option maxHeartbeats 1000000 in
/-- The classifier's bias as one row. -/
theorem bias_eq :
    (StableHlo.after (hostOps1 (F := Ideal)) W (Proc.devRef .tc main_v40) : FVec Ideal S1x5 .f32)
      = shapeCast S1x5 (W (Proc.devRef .tc main_arg10) : FVec Ideal S5 .f32) shapeCasts_S5_S1x5 := by
  dsimp only [hostOps1]
  after_results
  rfl

end Cert.KernelIdeal.HostBetween

end
-- ==== Proof.RefRead.lean ====
/-
  The reference's two dense stages, read entry by entry at the ideal values, are `twoProducts`.

  Node update. The reference computes `(mean · Wlᵀ + bl) + xp · Wrᵀ`, the tiled evaluation `(mean · Wlᵀ + xp · Wrᵀ) + bl`:
  the same three terms, and addition of extended reals is commutative and associative (no cancellation and no
  distributivity is used, so no finiteness either).

  Edge scores. The reference joins the edges' source features `d` (300 columns) and destination embeddings `p`
  (512 columns) into one 812-column array and multiplies by the whole transposed weight matrix; the tiled evaluation
  multiplies `d` by the first 300 rows of it and `p` by the last 512 and adds. Entry by entry the sum over the 812
  joined columns splits into the sum over the first 300, where the joined array is `d`, and the sum over the last 512,
  where it is `p` — again only the monoid laws of addition.
-/
import proofs.«175469_j33303176413371_1_alg».proof.Proof.Gen.ReferenceIdeal.Run
import proofs.«175469_j33303176413371_1_alg».proof.Proof.Gen.ReferenceIdeal.Read
import proofs.«175469_j33303176413371_1_alg».proof.Proof.TwoProducts
import Idealize.ShloMosaic.Lib.ValueLayout
import Idealize.ShloMosaic.Lib.Pipeline.Value

noncomputable section

namespace Cert.ReferenceIdeal.Bridge

open Cert.ReferenceIdeal Cert.ReferenceIdeal.Gen Cert.ReferenceIdeal.Read Idealize.ShloMosaic Idealize.ShloMosaic.ValueIdx Cert.Bipartite Cert.GNN

/-! ## The node update -/

/-- The bias broadcast to every row reads, at `(p, q)`, the bias at `q`. -/
theorem biasRows_apply (x7 : FVec Ideal S512 .f32) (p : Fin 8000) (q : Fin 512) :
    val_main_v21 (F := Ideal) x7 (ix2 p q) = x7 (ix1 q) := by
  rw [val_main_v21_apply, val_main_v20_apply]
  exact congrArg x7 (funext fun a => match a with | ⟨0, _⟩ => rfl)

/-- The reference's node embeddings are `twoProducts` of the mean, the node features, the two transposed weight
    matrices and any one-row array holding the bias. -/
theorem nodeUpdate_eq (x0 : FVec Ideal S20000x300 .f32) (x1 : FVec Ideal S8000x1280 .f32) (x2 x3 : IVec S500000 32)
    (x6 : FVec Ideal S512x300 .f32) (x7 : FVec Ideal S512 .f32) (x8 : FVec Ideal S512x1280 .f32)
    (b : FVec Ideal S1x512 .f32) (hb : ∀ q : Fin 512, b (ix2 (0 : Fin 1) q) = x7 (ix1 q)) :
    twoProducts (val_main_v17 (F := Ideal) x0 x2 x3) x1 (val_main_v18 (F := Ideal) x6) (val_main_v23 (F := Ideal) x8) b
      = val_main_v25 (F := Ideal) x0 x1 x2 x3 x6 x7 x8 := by
  funext i
  obtain ⟨p, q, rfl⟩ : ∃ (p : Fin 8000) (q : Fin 512), i = ix2 p q := ⟨i 0, i 1, eq_ix2 i⟩
  have h19 : val_main_v19 (F := Ideal) x0 x2 x3 x6 (ix2 p q)
      = ∑ k : Fin 300, val_main_v17 (F := Ideal) x0 x2 x3 (ix2 p k) * val_main_v18 (F := Ideal) x6 (ix2 k q) :=
    dotGeneral_plain_apply none .single (val_main_v17 (F := Ideal) x0 x2 x3) (val_main_v18 (F := Ideal) x6) p q
  have h24 : val_main_v24 (F := Ideal) x1 x8 (ix2 p q)
      = ∑ k : Fin 1280, x1 (ix2 p k) * val_main_v23 (F := Ideal) x8 (ix2 k q) :=
    dotGeneral_plain_apply none .single x1 (val_main_v23 (F := Ideal) x8) p q
  rw [twoProducts_apply, val_main_v25_apply, val_main_v22_apply, h19, h24, biasRows_apply, hb]
  exact add_right_comm _ _ _

/-! ## The edge scores -/

/-- Column `k` of the source features, as a column of the joined array. -/
abbrev colSrc (k : Fin 300) : Fin 812 := ⟨k.val, Nat.lt_of_lt_of_le k.isLt (by decide)⟩
/-- Column `k` of the destination embeddings, as a column of the joined array. -/
abbrev colDst (k : Fin 512) : Fin 812 := ⟨300 + k.val, by have := k.isLt; omega⟩

/-- A sum over the 812 joined columns is the sum over the first 300 plus the sum over the last 512. -/
theorem sum_joined (f : Fin 812 → EReal) : ∑ k : Fin 812, f k = ∑ k : Fin 300, f (colSrc k) + ∑ k : Fin 512, f (colDst k) :=
  Fin.sum_univ_add (a := 300) (b := 512) f

/-- The bias broadcast to every edge reads, at `(l, o)`, the bias at `o`. -/
theorem biasEdges_apply (x10 : FVec Ideal S5 .f32) (l : Fin 200000) (o : Fin 5) :
    val_main_v44 (F := Ideal) x10 (ix2 l o) = x10 (ix1 o) := by
  rw [val_main_v44_apply, val_main_v43_apply]
  exact congrArg x10 (funext fun a => match a with | ⟨0, _⟩ => rfl)

/-- The joined array at a source column is the source features. -/
theorem joined_src (D : FVec Ideal S200000x300 .f32) (P : FVec Ideal S200000x512 .f32) (l : Fin 200000) (k : Fin 300) :
    concatenate S200000x812 1 [⟨S200000x300, D⟩, ⟨S200000x512, P⟩] concatenates_S200000x300_S200000x512_S200000x812_d1 (ix2 l (colSrc k))
      = D (ix2 l k) :=
  concatenate_pair_apply_left (1 : Fin S200000x812.rank) D P concatenates_S200000x300_S200000x512_S200000x812_d1 (ix2 l (colSrc k)) rfl (ix2 l k)
    (fun b => match b with | ⟨0, _⟩ => rfl | ⟨1, _⟩ => rfl)

/-- The joined array at a destination column is the destination embeddings. -/
theorem joined_dst (D : FVec Ideal S200000x300 .f32) (P : FVec Ideal S200000x512 .f32) (l : Fin 200000) (k : Fin 512) :
    concatenate S200000x812 1 [⟨S200000x300, D⟩, ⟨S200000x512, P⟩] concatenates_S200000x300_S200000x512_S200000x812_d1 (ix2 l (colDst k))
      = P (ix2 l k) :=
  concatenate_pair_apply_right (1 : Fin S200000x812.rank) D P concatenates_S200000x300_S200000x512_S200000x812_d1 (ix2 l (colDst k)) rfl rfl (ix2 l k)
    (fun b hb => match b, hb with | ⟨0, _⟩, _ => rfl | ⟨1, _⟩, hb => absurd rfl hb)
    (by show k.val + 300 = 300 + k.val; omega)

/-- The reference's edge scores — the joined array times the whole transposed weight matrix, plus the bias — are
    `twoProducts` of the two parts, any two arrays holding the two column groups of the weights transposed, and any
    one-row array holding the bias. -/
theorem edgeScore_eq (D : FVec Ideal S200000x300 .f32) (P : FVec Ideal S200000x512 .f32)
    (x9 : FVec Ideal S5x812 .f32) (x10 : FVec Ideal S5 .f32)
    (wd : FVec Ideal ⟨2, ![300, 5]⟩ .f32) (wp : FVec Ideal ⟨2, ![512, 5]⟩ .f32) (b : FVec Ideal S1x5 .f32)
    (hwd : ∀ (k : Fin 300) (o : Fin 5), wd (ix2 k o) = x9 (ix2 o (colSrc k)))
    (hwp : ∀ (k : Fin 512) (o : Fin 5), wp (ix2 k o) = x9 (ix2 o (colDst k)))
    (hb : ∀ o : Fin 5, b (ix2 (0 : Fin 1) o) = x10 (ix1 o)) :
    twoProducts D P wd wp b
      = addf (Host.dotGeneral (φ₁ := .f32) (φ₂ := .f32) dot_S200000x812_S812x5_S200000x5_1_0_0_1_n_n none
          (concatenate S200000x812 1 [⟨S200000x300, D⟩, ⟨S200000x512, P⟩] concatenates_S200000x300_S200000x512_S200000x812_d1)
          (val_main_v41 (F := Ideal) x9)) (val_main_v44 (F := Ideal) x10) := by
  funext i
  obtain ⟨l, o, rfl⟩ : ∃ (l : Fin 200000) (o : Fin 5), i = ix2 l o := ⟨i 0, i 1, eq_ix2 i⟩
  have hdot : Host.dotGeneral (φ₁ := .f32) (φ₂ := .f32) dot_S200000x812_S812x5_S200000x5_1_0_0_1_n_n none
        (concatenate S200000x812 1 [⟨S200000x300, D⟩, ⟨S200000x512, P⟩] concatenates_S200000x300_S200000x512_S200000x812_d1)
        (val_main_v41 (F := Ideal) x9) (ix2 l o)
      = ∑ k : Fin 812, concatenate S200000x812 1 [⟨S200000x300, D⟩, ⟨S200000x512, P⟩] concatenates_S200000x300_S200000x512_S200000x812_d1 (ix2 l k)
          * val_main_v41 (F := Ideal) x9 (ix2 k o) :=
    dotGeneral_plain_apply none .single _ (val_main_v41 (F := Ideal) x9) l o
  have hw : ∀ k : Fin 812, val_main_v41 (F := Ideal) x9 (ix2 k o) = x9 (ix2 o k) := fun k =>
    transpose_ix2_apply x9 transposes_S5x812_S812x5_1_0 k o
  rw [twoProducts_apply, addf_apply, hdot, sum_joined, biasEdges_apply, hb]
  refine congrArg₂ (· + ·) (congrArg₂ (· + ·) (Finset.sum_congr rfl fun k _ => ?_) (Finset.sum_congr rfl fun k _ => ?_)) rfl
  · rw [joined_src, hw, hwd]
  · rw [joined_dst, hw, hwp]

end Cert.ReferenceIdeal.Bridge

end
-- ==== Proof.ResultValue.lean ====
/-
  The tiled program's result array is the reference's result function of the arguments.

  Walking the program's buffer contents from the launch to the return:
  the first stage is entered with the neighbour means, the node features, the two transposed weight matrices and the
  bias row (the host operations before it, which are the reference's own), so its result array ends holding
  `twoProducts` of those — the reference's node embeddings, the bias commuted past the second product;
  the operations between the stages gather the labelled edges' source features and, from that result array, their
  destination embeddings, cut the classifier's weights in two and transpose the parts;
  the second stage's result array then ends holding `twoProducts` of these — the reference's product of the joined
  features with the whole transposed weight matrix, the 812-term sum split at the join, plus the bias.
-/
import proofs.«175469_j33303176413371_1_alg».proof.Proof.SageRegion
import proofs.«175469_j33303176413371_1_alg».proof.Proof.EdgeRegion
import proofs.«175469_j33303176413371_1_alg».proof.Proof.HostBefore
import proofs.«175469_j33303176413371_1_alg».proof.Proof.HostBetween
import proofs.«175469_j33303176413371_1_alg».proof.Proof.RefRead

set_option maxRecDepth 16384

noncomputable section

namespace Cert.KernelIdeal.ResultValue

open Cert.KernelIdeal Cert.KernelIdeal.Gen Idealize.ShloMosaic Idealize.ShloMosaic.TcCoe Idealize.SL.Sem Idealize.ShloMosaic.ValueIdx
open Cert.ReferenceIdeal.Read Cert.ReferenceIdeal.Bridge Cert.Bipartite

variable (m : (ℓ : Loc nD τ sig) → Buf (Elt Ideal) ℓ) (ρ : Dev nD → PrngReg)

/-! ## The arguments, by name -/

abbrev xDrug (c : Dev nD) : FVec Ideal S20000x300 .f32 := m ((c : Thread nD τ).loc main_arg0)
abbrev xProt (c : Dev nD) : FVec Ideal S8000x1280 .f32 := m ((c : Thread nD τ).loc main_arg1)
abbrev edgeSrc (c : Dev nD) : IVec S500000 32 := m ((c : Thread nD τ).loc main_arg2)
abbrev edgeDst (c : Dev nD) : IVec S500000 32 := m ((c : Thread nD τ).loc main_arg3)
abbrev lblSrc (c : Dev nD) : IVec S200000 32 := m ((c : Thread nD τ).loc main_arg4)
abbrev lblDst (c : Dev nD) : IVec S200000 32 := m ((c : Thread nD τ).loc main_arg5)
abbrev wL (c : Dev nD) : FVec Ideal S512x300 .f32 := m ((c : Thread nD τ).loc main_arg6)
abbrev bL (c : Dev nD) : FVec Ideal S512 .f32 := m ((c : Thread nD τ).loc main_arg7)
abbrev wR (c : Dev nD) : FVec Ideal S512x1280 .f32 := m ((c : Thread nD τ).loc main_arg8)
abbrev wLin (c : Dev nD) : FVec Ideal S5x812 .f32 := m ((c : Thread nD τ).loc main_arg9)
abbrev bLin (c : Dev nD) : FVec Ideal S5 .f32 := m ((c : Thread nD τ).loc main_arg10)

/-! ## The first stage -/

/-- What the first stage is entered with. -/
theorem in0_mean (c : Dev nD) : (V3 m ρ c main_v17 : FVec Ideal S8000x300 .f32) = val_main_v17 (F := Ideal) (xDrug m c) (edgeSrc m c) (edgeDst m c) :=
  HostBefore.entry0_mean (W0 m ρ c)
theorem in0_prot (c : Dev nD) : (V3 m ρ c main_arg1 : FVec Ideal S8000x1280 .f32) = xProt m c :=
  HostBefore.entry0_prot (W0 m ρ c)
theorem in0_wl (c : Dev nD) : (V3 m ρ c main_v18 : FVec Ideal S300x512 .f32) = val_main_v18 (F := Ideal) (wL m c) :=
  HostBefore.entry0_wl (W0 m ρ c)
theorem in0_wr (c : Dev nD) : (V3 m ρ c main_v19 : FVec Ideal S1280x512 .f32) = val_main_v23 (F := Ideal) (wR m c) :=
  HostBefore.entry0_wr (W0 m ρ c)
theorem in0_bias (c : Dev nD) : (V3 m ρ c main_v20 : FVec Ideal S1x512 .f32) = shapeCast S1x512 (bL m c) shapeCasts_S512_S1x512 :=
  HostBefore.entry0_bias (W0 m ρ c)

/-- The first stage's result array ends holding the reference's node embeddings. -/
theorem nodes_eq (c : Dev nD) :
    (W4 m ρ c (Proc.devRef .tc main_v21) : FVec Ideal S8000x512 .f32)
      = val_main_v25 (F := Ideal) (xDrug m c) (xProt m c) (edgeSrc m c) (edgeDst m c) (wL m c) (bL m c) (wR m c) :=
  calc (W4 m ρ c (Proc.devRef .tc main_v21) : FVec Ideal S8000x512 .f32)
      = (dat0 (V3 m ρ) c).arrAt 5 cfg0.N := W4_arr m ρ c 5
    _ = twoProducts (V3 m ρ c main_v17) (V3 m ρ c main_arg1) (V3 m ρ c main_v18) (V3 m ρ c main_v19) (V3 m ρ c main_v20) :=
        SageRegion.final (V3 m ρ) c
    _ = twoProducts (val_main_v17 (F := Ideal) (xDrug m c) (edgeSrc m c) (edgeDst m c)) (xProt m c) (val_main_v18 (F := Ideal) (wL m c))
          (val_main_v23 (F := Ideal) (wR m c)) (shapeCast S1x512 (bL m c) shapeCasts_S512_S1x512) := by
        rw [in0_mean m ρ c, in0_prot m ρ c, in0_wl m ρ c, in0_wr m ρ c, in0_bias m ρ c]
    _ = val_main_v25 (F := Ideal) (xDrug m c) (xProt m c) (edgeSrc m c) (edgeDst m c) (wL m c) (bL m c) (wR m c) :=
        nodeUpdate_eq _ _ _ _ _ _ _ _ (fun q => shapeCast_a_1a_apply (bL m c) shapeCasts_S512_S1x512 0 q)

/-! ## Between the stages -/

/-- The arguments the later operations read are as launched when the first stage has ended. -/
theorem kept_xDrug (c : Dev nD) : (W4 m ρ c (Proc.devRef .tc main_arg0) : FVec Ideal S20000x300 .f32) = xDrug m c :=
  (W4_of_ne m ρ c main_arg0 (by decide)).trans (HostBefore.entry0_arg0 (W0 m ρ c))
theorem kept_lblSrc (c : Dev nD) : (W4 m ρ c (Proc.devRef .tc main_arg4) : IVec S200000 32) = lblSrc m c :=
  (W4_of_ne m ρ c main_arg4 (by decide)).trans (HostBefore.entry0_arg4 (W0 m ρ c))
theorem kept_lblDst (c : Dev nD) : (W4 m ρ c (Proc.devRef .tc main_arg5) : IVec S200000 32) = lblDst m c :=
  (W4_of_ne m ρ c main_arg5 (by decide)).trans (HostBefore.entry0_arg5 (W0 m ρ c))
theorem kept_wLin (c : Dev nD) : (W4 m ρ c (Proc.devRef .tc main_arg9) : FVec Ideal S5x812 .f32) = wLin m c :=
  (W4_of_ne m ρ c main_arg9 (by decide)).trans (HostBefore.entry0_arg9 (W0 m ρ c))
theorem kept_bLin (c : Dev nD) : (W4 m ρ c (Proc.devRef .tc main_arg10) : FVec Ideal S5 .f32) = bLin m c :=
  (W4_of_ne m ρ c main_arg10 (by decide)).trans (HostBefore.entry0_arg10 (W0 m ρ c))

/-- What the second stage is entered with. -/
theorem in1_src (c : Dev nD) : (V5 m ρ c main_v28 : FVec Ideal S200000x300 .f32) = val_main_v32 (F := Ideal) (xDrug m c) (lblSrc m c) := by
  refine (HostBetween.src_eq (W4 m ρ c)).trans ?_
  rw [kept_xDrug m ρ c, kept_lblSrc m ρ c]
theorem in1_dst (c : Dev nD) : (V5 m ρ c main_v35 : FVec Ideal S200000x512 .f32)
    = val_main_v39 (F := Ideal) (xDrug m c) (xProt m c) (edgeSrc m c) (edgeDst m c) (lblDst m c) (wL m c) (bL m c) (wR m c) := by
  refine (HostBetween.dst_eq (W4 m ρ c)).trans ?_
  rw [nodes_eq m ρ c, kept_lblDst m ρ c]
  rfl
theorem in1_wd (c : Dev nD) : (V5 m ρ c main_v37 : FVec Ideal S300x5 .f32)
    = transpose S300x5 [1, 0] (extractStridedSlice S5x300 ![0, 0] (wLin m c) slices_S5x812_S5x300_0_0) transposes_S5x300_S300x5_1_0 := by
  refine (HostBetween.wd_eq (W4 m ρ c)).trans ?_
  rw [kept_wLin m ρ c]
theorem in1_wp (c : Dev nD) : (V5 m ρ c main_v39 : FVec Ideal S512x5 .f32)
    = transpose S512x5 [1, 0] (extractStridedSlice S5x512 ![0, 300] (wLin m c) slices_S5x812_S5x512_0_300) transposes_S5x512_S512x5_1_0 := by
  refine (HostBetween.wp_eq (W4 m ρ c)).trans ?_
  rw [kept_wLin m ρ c]
theorem in1_bias (c : Dev nD) : (V5 m ρ c main_v40 : FVec Ideal S1x5 .f32) = shapeCast S1x5 (bLin m c) shapeCasts_S5_S1x5 := by
  refine (HostBetween.bias_eq (W4 m ρ c)).trans ?_
  rw [kept_bLin m ρ c]

/-! ## The second stage, and the result -/

/-- The first 300 columns of the weights, transposed, read at `(k, o)`: the weights at `(o, k)`. -/
theorem wd_apply (x9 : FVec Ideal S5x812 .f32) (k : Fin 300) (o : Fin 5) :
    transpose S300x5 [1, 0] (extractStridedSlice S5x300 ![0, 0] x9 slices_S5x812_S5x300_0_0) transposes_S5x300_S300x5_1_0 (ix2 k o)
      = x9 (ix2 o (colSrc k)) :=
  (transpose_ix2_apply _ transposes_S5x300_S300x5_1_0 k o).trans
    (slice2_axis1_apply 0 x9 slices_S5x812_S5x300_0_0 o k (colSrc k) (Nat.zero_add _).symm)

/-- The last 512 columns of the weights, transposed, read at `(k, o)`: the weights at `(o, 300 + k)`. -/
theorem wp_apply (x9 : FVec Ideal S5x812 .f32) (k : Fin 512) (o : Fin 5) :
    transpose S512x5 [1, 0] (extractStridedSlice S5x512 ![0, 300] x9 slices_S5x812_S5x512_0_300) transposes_S5x512_S512x5_1_0 (ix2 k o)
      = x9 (ix2 o (colDst k)) :=
  (transpose_ix2_apply _ transposes_S5x512_S512x5_1_0 k o).trans
    (slice2_axis1_apply 300 x9 slices_S5x812_S5x512_0_300 o k (colDst k) rfl)

/-- THE RESULT: at the return the result array holds the reference's result function of the arguments. -/
theorem result_eq (c : Dev nD) :
    (W6 m ρ c (Proc.devRef .tc main_v41) : FVec Ideal S200000x5 .f32)
      = val_main_v45 (F := Ideal) (xDrug m c) (xProt m c) (edgeSrc m c) (edgeDst m c) (lblSrc m c) (lblDst m c) (wL m c) (bL m c) (wR m c)
          (wLin m c) (bLin m c) :=
  calc (W6 m ρ c (Proc.devRef .tc main_v41) : FVec Ideal S200000x5 .f32)
      = (dat1 (V5 m ρ) c).arrAt 5 cfg1.N := W6_arr m ρ c 5
    _ = twoProducts (V5 m ρ c main_v28) (V5 m ρ c main_v35) (V5 m ρ c main_v37) (V5 m ρ c main_v39) (V5 m ρ c main_v40) :=
        EdgeRegion.final (V5 m ρ) c
    _ = twoProducts (val_main_v32 (F := Ideal) (xDrug m c) (lblSrc m c))
          (val_main_v39 (F := Ideal) (xDrug m c) (xProt m c) (edgeSrc m c) (edgeDst m c) (lblDst m c) (wL m c) (bL m c) (wR m c))
          (transpose S300x5 [1, 0] (extractStridedSlice S5x300 ![0, 0] (wLin m c) slices_S5x812_S5x300_0_0) transposes_S5x300_S300x5_1_0)
          (transpose S512x5 [1, 0] (extractStridedSlice S5x512 ![0, 300] (wLin m c) slices_S5x812_S5x512_0_300) transposes_S5x512_S512x5_1_0)
          (shapeCast S1x5 (bLin m c) shapeCasts_S5_S1x5) := by
        rw [in1_src m ρ c, in1_dst m ρ c, in1_wd m ρ c, in1_wp m ρ c, in1_bias m ρ c]
    _ = val_main_v45 (F := Ideal) (xDrug m c) (xProt m c) (edgeSrc m c) (edgeDst m c) (lblSrc m c) (lblDst m c) (wL m c) (bL m c) (wR m c)
          (wLin m c) (bLin m c) :=
        edgeScore_eq _ _ (wLin m c) (bLin m c) _ _ _ (wd_apply (wLin m c)) (wp_apply (wLin m c))
          (fun o => shapeCast_a_1a_apply (bLin m c) shapeCasts_S5_S1x5 0 o)

end Cert.KernelIdeal.ResultValue

end
-- ==== Proof.lean ====
/-
  A two-stage graph network evaluated by two row-tiled dense kernels, against its plain reference, over the extended reals.

  The network: each of 8000 nodes averages the 300 features of its in-neighbours among 20000 source nodes (a gather
  over 500000 edges, a sum per destination node, a division by the in-degree clipped below at one), then is updated
  to `mean · Wlᵀ + bl + x · Wrᵀ` (512 features); each of 200000 labelled edges joins its source's 300 features with
  its destination's 512 and is scored by `joined · Wlinᵀ + blin` (5 scores).

  The tiled program keeps the gathers, the sums and the division on the host, operation for operation as the reference
  has them, and evaluates the two dense stages 1000 and 2000 rows at a time, each as two products into zero accumulators
  added, plus the bias row. At the ideal values a narrowing of format is the identity and a product is its plain sum, so:
  the node update differs from the reference's only in where the bias is added, `(a + c) + b = (a + b) + c`;
  the edge score differs only in that the sum over the 812 joined features is taken as the sum over the first 300 plus the
  sum over the last 512. Both are laws of addition alone, which hold on the extended reals without any finiteness, so
  the precondition is not used. The gathers from the node embeddings agree because the embeddings themselves agree as
  whole arrays.

  The three frames: the tiled program's two are the generated frame certificates; the reference has no kernel, and its
  frame is its generated run with the result dropped. The idealization rewrote nothing, so there is nothing to preserve.
-/
import proofs.«175469_j33303176413371_1_alg».proof.Defs
import proofs.«175469_j33303176413371_1_alg».proof.Proof.Gen.Kernel
import proofs.«175469_j33303176413371_1_alg».proof.Proof.Gen.Kernel.Frame
import proofs.«175469_j33303176413371_1_alg».proof.Proof.Gen.KernelIdeal
import proofs.«175469_j33303176413371_1_alg».proof.Proof.Gen.KernelIdeal.Frame
import proofs.«175469_j33303176413371_1_alg».proof.Proof.Gen.ReferenceIdeal
import proofs.«175469_j33303176413371_1_alg».proof.Proof.Gen.ReferenceIdeal.Run
import proofs.«175469_j33303176413371_1_alg».proof.Proof.Gen.ReferenceIdeal.Read
import proofs.«175469_j33303176413371_1_alg».proof.Proof.Gen.Pre_finite_inputs
import proofs.«175469_j33303176413371_1_alg».proof.Proof.ResultRun
import proofs.«175469_j33303176413371_1_alg».proof.Proof.ResultValue
import Idealize.ShloMosaic.Adequacy
import Idealize.ShloMosaic.Init

noncomputable section

open Idealize.ShloMosaic Idealize.ShloMosaic.TcCoe Idealize.SL.Sem

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the result array at the reference's
    result function of the arguments: the tiled program by the walk of its buffer contents (`ResultValue.result_eq`),
    the reference by its generated run. -/
theorem algebraic : Cert.algebraic_KernelIdeal_ReferenceIdeal := by
  intro m ρ m' ρ' _ hagree
  refine ⟨fun c => Cert.ReferenceIdeal.Read.val_main_v45 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.ResultValue.result_eq m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [e0, e1, e2, e3, e4, e5, e6, e7, e8, e9, e10]
    exact Cert.ReferenceIdeal.Read.val_main_v45_eq _ _ _ _ _ _ _ _ _ _ _

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
